-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 18
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .bf16⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S_, .f32⟩
  | .hbm, ⟨17, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_20 : BitVec 32 := 0#32
  let v36 : BitVec 1 := Scalar.cmpi .ne v35 c0_i32_20
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v5) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  reducesTo_S8192x1_S_d0_1 : S8192x1.ReducesTo [0, 1] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Accum.lean ====
/-
  What the kernel's two running sums hold after each grid point, and the pipeline's proof data over them.

  The grid is 8 x 8: point `t` is row tile `t / 8` against column tile `t % 8`.  At a point the kernel reads the
  row tile's 1024 feature rows and cluster ids (windows 0 and 2), the column tile's (windows 1 and 3), and adds to
  two scratch columns of 1024 sums — the similarities' exponentials over the column tile, once masked by "same
  cluster" and once unmasked — which it zeroes first when the column tile is the first of its sweep.  After the
  sweep's last column tile it writes `-log (masked / (unmasked + ε))` to the row tile's block of the output.
-/
import proofs.«110274_j7507602833891_1_alg».proof.Proof.Gen.KernelIdeal.Launch
import proofs.«110274_j7507602833891_1_alg».proof.Proof.Gen.KernelIdeal.Skeleton
import proofs.«110274_j7507602833891_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Acc

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The arrays as the region finds them -/

/-- Core `c`'s buffer contents when the region is entered: after the host operations before it (the row norms,
    the normalised features, the two reshapes of the cluster ids). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two running sums -/

/-- The scratch column of masked sums and the scratch column of all sums, as memrefs. -/
abbrev scM0 : Memref sig .tc .vmem S1024x1 .f32 := Memref.whole cc0_scratch0
abbrev scM1 : Memref sig .tc .vmem S1024x1 .f32 := Memref.whole cc0_scratch1

/-- One point's update of the pair (masked sums, all sums): each gains the point's column tile's contribution. -/
def step (c : Dev nD) (t : Fin cfg0.N) (s : Vec F S1024x1 .f32 × Vec F S1024x1 .f32) : Vec F S1024x1 .f32 × Vec F S1024x1 .f32 :=
  (k0_pay6 (iblk m c 0 t) (iblk m c 1 t) (iblk m c 2 t) (iblk m c 3 t) s.1,
   k0_pay1 (k0_pay7 (iblk m c 0 t) (iblk m c 1 t) s.2))

/-- The pair after the body at position `n`: at the first column tile of a sweep the update of the zero columns,
    else the update of what the point before left. -/
def accAt (c : Dev nD) : (n : ℕ) → n < cfg0.N → Vec F S1024x1 .f32 × Vec F S1024x1 .f32
  | 0, hn => step m c ⟨0, hn⟩ (k0_pay3, k0_pay4)
  | n + 1, hn =>
    if (n + 1) % 8 = 0 then step m c ⟨n + 1, hn⟩ (k0_pay3, k0_pay4)
    else step m c ⟨n + 1, hn⟩ (accAt c n (Nat.lt_of_succ_lt hn))

/-- At the first column tile of a sweep the sums restart from zero. -/
theorem accAt_first (c : Dev nD) (t : Fin cfg0.N) (h : t.val % 8 = 0) :
    accAt m c t.val t.isLt = step m c t (k0_pay3, k0_pay4) := by
  obtain ⟨n, hn⟩ := t
  cases n with
  | zero => rfl
  | succ n => exact if_pos h

/-- At any later column tile they continue from the point before. -/
theorem accAt_next (c : Dev nD) (t : Fin cfg0.N) (h : ¬t.val % 8 = 0) :
    accAt m c t.val t.isLt = step m c t (accAt m c (t.val - 1) (Nat.lt_of_le_of_lt (Nat.sub_le _ _) t.isLt)) := by
  obtain ⟨n, hn⟩ := t
  cases n with
  | zero => exact absurd (Nat.zero_mod _) h
  | succ n => exact if_neg h

/-- What the body writes to the output block at a sweep's last column tile: the row losses from the two sums. -/
def outAt (c : Dev nD) (t : Fin cfg0.N) : Vec F S1024x1 .f32 :=
  k0_pay2 (accAt m c t.val t.isLt).1 (accAt m c t.val t.isLt).2

/-! ## The region invariant and the proof data -/

/-- Before the first point the two scratch columns hold anything; after point `n` they hold that point's pair. -/
def PhiS (c : Dev nD) : (n : ℕ) → n ≤ cfg0.N → sProp 𝕄
  | 0, _ => Pipeline.scopedRest spec0 c
  | n + 1, hn => iprop(owns (c : Thread nD τ) scM0 fullShare ((accAt m c n hn).1) ∗ owns (c : Thread nD τ) scM1 fullShare ((accAt m c n hn).2))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0 fullShare ((accAt m c n hn).1) ∗ owns (c : Thread nD τ) scM1 fullShare ((accAt m c n hn).2)) := rfl

theorem PhiS_pos (c : Dev nD) (n : ℕ) (h : n ≤ cfg0.N) (hz : n ≠ 0) :
    PhiS m c n h = iprop(owns (c : Thread nD τ) scM0 fullShare ((accAt m c (n - 1) (by omega)).1) ∗ owns (c : Thread nD τ) scM1 fullShare ((accAt m c (n - 1) (by omega)).2)) := by
  cases n with
  | zero => exact absurd rfl hz
  | succ n => rfl

/-- The proof data of the pipeline on core `c`: the arrays as the region finds them; after the body each input
    window's buffer still at its block and the output's, where the body writes it, at the row losses; the scratch
    columns tracked by `PhiS`; the feature array, read through windows 0 and 1, held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

end Cert.KernelIdeal.Acc

end
-- ==== Proof.BodyCases.lean ====
/-
  The body's two branch conditions over the 8 x 8 grid, in closed form, and what follows from them for the windows.

  The body zeroes the two running sums when the column tile is the first of its sweep (point `t` with
  `t % 8 = 0`) and writes the row losses to the output block when it is the last (`t % 8 = 7`).  The output
  window is idle at every other point and is written back only at a sweep's last point; the four input
  windows are never idle, and each holds its block at every point whether or not it was fetched there.
-/
import proofs.«110274_j7507602833891_1_alg».proof.Proof.Accum
import Idealize.ShloMosaic.Lib.Pipeline.Value
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The offsets of a whole-block rectangle are all zero. -/
theorem hz : (![0, 0] : Fin 2 → Nat) = fun _ => 0 := funext fun a => by fin_cases a <;> rfl

/-- A buffer read back after a store of its whole block (whatever was stored before it, whatever the buffer
    held): the stored block. -/
theorem read_store_whole {S : Shape} {e : EltTy} {sig' : RefSig} {κ : Kind} {sp : Space} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load of the whole block after such a store reads the stored block. -/
theorem load_store_whole {S : Shape} {e : EltTy} {sig' : RefSig} {κ : Kind} {sp : Space} (v : View sig' κ sp S e)
    {off : Fin S.rank → Nat} (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-! ## The two conditions -/

/-- "The column tile is the first of its sweep", as the body computes it from the grid coordinates. -/
abbrev isFirst (i : grid0.Coords) : Prop :=
  (Scalar.cmpi .ne (Scalar.extui (Scalar.cmpi .eq (BitVec.ofNat 32 (i 1).val) 0#32)) 0#32) = 1#1
/-- "The column tile is the last of its sweep". -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

/-! ## Idle and live points of the windows -/

theorem live0 : ∀ i : grid0.Coords, cfg0.idle 0 i = false := fun _ => rfl
theorem live1 : ∀ i : grid0.Coords, cfg0.idle 1 i = false := fun _ => rfl
theorem live2 : ∀ i : grid0.Coords, cfg0.idle 2 i = false := fun _ => rfl
theorem live3 : ∀ i : grid0.Coords, cfg0.idle 3 i = false := fun _ => rfl

/-- Off a sweep's last point the output window is idle, -/
theorem idle4 : ∀ t : Fin cfg0.N, ¬isLast (grid0.coords t) → cfg0.idle 4 (grid0.coords t) = true := by decide +kernel
/-- and is not written back; -/
theorem noFlush4 : ∀ t : Fin cfg0.N, ¬isLast (grid0.coords t) → (cfg0.win 4).flush t = false := by decide +kernel
/-- at it the window is live. -/
theorem live4 : ∀ t : Fin cfg0.N, isLast (grid0.coords t) → cfg0.idle 4 (grid0.coords t) = false := by decide +kernel

/-! ## What the body finds in the input windows' buffers -/

theorem before0 (c : Dev nD) (t : Fin cfg0.N) (d) : (dats m 0 c).before 0 t d = iblk m c 0 t :=
  ((dats m 0 c).before_in_eq_fetched 0 rfl live0 (fun _ _ _ => rfl)
      (fun t => by rw [after0_0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl live1 (fun _ _ _ => rfl)
      (fun t => by rw [after0_1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl live2 (fun _ _ _ => rfl)
      (fun t => by rw [after0_2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl live3 (fun _ _ _ => rfl)
      (fun t => by rw [after0_3]; unfold Dat.blockOf iblk; rw [A_eq]; try rfl) t d).trans
    (by unfold Dat.fetched Dat.blockOf iblk; rw [A_eq]; try rfl)

/-! ## The scoped rest as the two running sums at anything -/

theorem scopedRest_eq (c : Dev nD) :
    (Pipeline.scopedRest spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

end Cert.KernelIdeal.Acc

end
-- ==== Proof.BodyRunFirst.lean ====
/-
  The body at the first point of a sweep (the column tile is the first): both running sums are zeroed, then each
  gains the point's contribution; the output block's buffer is not touched.
-/
import proofs.«110274_j7507602833891_1_alg».proof.Proof.BodyCases

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- On whole buffers — the four inputs at `x0 … x3`, the output's at `xo`, the running sums at anything — the body
    runs to the continuation holding the inputs and the output's buffer as they were, the masked sums at the update
    of the zero column by the point's masked row sums and the plain sums at the update of the zero column by the
    row sums. -/
theorem run_first (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : isFirst i) (hc1 : ¬isLast i) (x0 x1 : Vec F S1024x512 .bf16) (x2 : Vec F S1024x1 .i32) (x3 : Vec F S1x1024 .i32) (xo : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k0_pay6 x0 x1 x2 x3 k0_pay3)
            ∗ owns (c : Thread nD τ) arg8 fullShare (k0_pay1 (k0_pay7 x0 x1 k0_pay4))) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    refine (read_store_whole _ _ hz _ _ _).trans ?_
    sl_unfold_words
    simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]
    exact congrArg (k0_pay6 x0 x1 x2 x3) (load_store_whole (S := S1024x1) _ _ _ _)
  iexists _; isplitr; swap; · iexact HS1
  ipureintro
  refine (read_store_whole _ _ hz _ _ _).trans ?_
  sl_unfold_words
  simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]
  exact congrArg (fun v => k0_pay1 (k0_pay7 x0 x1 v)) (load_store_whole (S := S1024x1) _ _ _ _)

end Cert.KernelIdeal.Acc

end
-- ==== Proof.BodyRunMid.lean ====
/-
  The body at a point in the middle of a sweep (the column tile neither first nor last): each running sum gains
  the point's contribution, and the output block's buffer is not touched.
-/
import proofs.«110274_j7507602833891_1_alg».proof.Proof.BodyRunFirst

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- On whole buffers — the four inputs at `x0 … x3`, the output's at `xo`, the running sums at `xs0`, `xs1` —
    the body runs to the continuation holding the inputs and the output's buffer as they were, the masked sums at
    their update by the point's masked row sums and the plain sums at theirs by the row sums. -/
theorem run_mid (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬isFirst i) (hc1 : ¬isLast i) (x0 x1 : Vec F S1024x512 .bf16) (x2 : Vec F S1024x1 .i32) (x3 : Vec F S1x1024 .i32) (xo xs0 xs1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k0_pay6 x0 x1 x2 x3 xs0)
            ∗ owns (c : Thread nD τ) arg8 fullShare (k0_pay1 (k0_pay7 x0 x1 xs1))) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    refine (read_store_whole _ _ hz _ _ _).trans ?_
    simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]
  iexists _; isplitr; swap; · iexact HS1
  ipureintro
  refine (read_store_whole _ _ hz _ _ _).trans ?_
  simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]

end Cert.KernelIdeal.Acc

end
-- ==== Proof.BodyRunLast.lean ====
/-
  The body at the last point of a sweep (the column tile is the last): each running sum gains the point's
  contribution, and the row losses computed from the two updated sums are stored to the output block's buffer.
-/
import proofs.«110274_j7507602833891_1_alg».proof.Proof.BodyRunMid

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- On whole buffers — the four inputs at `x0 … x3`, the output's at anything, the running sums at `xs0`, `xs1` —
    the body runs to the continuation holding the inputs as they were, the two sums at their updates, and the
    output's buffer at the row losses of the UPDATED sums. -/
theorem run_last (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬isFirst i) (hc1 : isLast i) (x0 x1 : Vec F S1024x512 .bf16) (x2 : Vec F S1024x1 .i32) (x3 : Vec F S1x1024 .i32) (xs0 xs1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k0_pay2 (k0_pay6 x0 x1 x2 x3 xs0) (k0_pay1 (k0_pay7 x0 x1 xs1)))
            ∗ owns (c : Thread nD τ) arg7 fullShare (k0_pay6 x0 x1 x2 x3 xs0)
            ∗ owns (c : Thread nD τ) arg8 fullShare (k0_pay1 (k0_pay7 x0 x1 xs1))) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (read_store_whole _ _ hz _ _ _).trans ?_
    sl_unfold_words
    simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]
    exact congrArg₂ k0_pay2 (load_store_whole (S := S1024x1) _ _ _ _) (load_store_whole (S := S1024x1) _ _ _ _)
  isplitl [HS0]
  · iexists _; isplitr; swap; · iexact HS0
    ipureintro
    refine (read_store_whole _ _ hz _ _ _).trans ?_
    simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]
  iexists _; isplitr; swap; · iexact HS1
  ipureintro
  refine (read_store_whole _ _ hz _ _ _).trans ?_
  simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]

end Cert.KernelIdeal.Acc

end
-- ==== Proof.Body.lean ====
/-
  The body obligation of the pipeline: at every grid point the kernel body, handed the windows' buffers and the two
  running sums as the point before left them, leaves the sums at this point's pair, the inputs' buffers at their
  blocks, and the output's buffer at the row losses where the point stores them and untouched elsewhere.

  The point's position in its sweep (first column tile, a middle one, the last) selects one of three whole-body
  runs; the eight column tiles make "first and last at once" impossible.
-/
import proofs.«110274_j7507602833891_1_alg».proof.Proof.BodyRunLast

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- Each window's current staging buffer at point `t`, as the pipeline hands it to the body, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)

/-- Whatever the invariant says of the two running sums before a point, each is owned whole at some contents. -/
theorem PhiS_forget (c : Dev nD) (n : ℕ) (h : n ≤ cfg0.N) :
    PhiS m c n h ⊢ iprop((∃ d, owns (c : Thread nD τ) scM0 fullShare d) ∗ (∃ d, owns (c : Thread nD τ) scM1 fullShare d)) := by
  cases n with
  | zero => rw [PhiS_zero m c 0 h rfl, scopedRest_eq]
  | succ n =>
    rw [PhiS_succ]
    iintro ⟨H0, H1⟩
    isplitl [H0]; · iexists _; iexact H0
    iexists _; iexact H1

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's place in its sweep selects the run;
    the invariant hands over the two sums (at anything at a sweep's first point, else at the pair the point before
    left) and takes them back at this point's pair; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0 t) fullShare ((dats m 0 c).after 0 t) from by
      unfold Dat.leavesExact; rw [live0 (grid0.coords t)], after0_0]
  rw [show (dats m 0 c).leavesExact 1 t = owns (c : Thread nD τ) (ms1 t) fullShare ((dats m 0 c).after 1 t) from by
      unfold Dat.leavesExact; rw [live1 (grid0.coords t)], after0_1]
  rw [show (dats m 0 c).leavesExact 2 t = owns (c : Thread nD τ) (ms2 t) fullShare ((dats m 0 c).after 2 t) from by
      unfold Dat.leavesExact; rw [live2 (grid0.coords t)], after0_2]
  rw [show (dats m 0 c).leavesExact 3 t = owns (c : Thread nD τ) (ms3 t) fullShare ((dats m 0 c).after 3 t) from by
      unfold Dat.leavesExact; rw [live3 (grid0.coords t)], after0_3]
  have hN : t.val < 64 := lt_of_lt_of_eq t.isLt (show cfg0.N = 64 from N_0)
  by_cases h0 : t.val % 8 = 0
  · have h1 : ¬t.val % 8 = 7 := by omega
    have hc0 : isFirst (grid0.coords t) := (isFirst_iff t).mpr h0
    have hc1 : ¬isLast (grid0.coords t) := fun h => h1 ((isLast_iff t).mp h)
    rw [Dat.leavesExact_idle (dats m 0 c) 4 t (idle4 t hc1) (noFlush4 t hc1)]
    rw [accAt_first m c t h0]
    unfold step; dsimp only
    refine (BIClass.sep_mono (PhiS_forget m c _ _) .rfl).trans ?_
    iintro ⟨⟨HS0, HS1⟩, Ho, ⟨%d0, H0⟩, ⟨%d1, H1⟩, ⟨%d2, H2⟩, ⟨%d3, H3⟩, ⟨%d4, H4⟩⟩
    iapply (run_first c (grid0.coords t) (ms0 t) (hs0 t) (ms1 t) (hs1 t) (ms2 t) (hs2 t) (ms3 t) (hs3 t) (ms4 t) (hs4 t) scM0 (Memref.isWhole_whole _) scM1 (Memref.isWhole_whole _) hc0 hc1 (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    rw [PhiS_pos m c _ _ hz, accAt_next m c t h0]
    unfold step; dsimp only
    by_cases h1 : t.val % 8 = 7
    · have hc0 : ¬isFirst (grid0.coords t) := fun h => h0 ((isFirst_iff t).mp h)
      have hc1 : isLast (grid0.coords t) := (isLast_iff t).mpr h1
      rw [show (dats m 0 c).leavesExact 4 t = owns (c : Thread nD τ) (ms4 t) fullShare ((dats m 0 c).after 4 t) from by
        unfold Dat.leavesExact; rw [live4 t hc1], after0_4]
      unfold outAt
      rw [accAt_next m c t h0]
      unfold step; dsimp only
      iintro ⟨⟨HS0, HS1⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scM0 (Memref.isWhole_whole _) scM1 (Memref.isWhole_whole _) hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexact H4
    · have hc0 : ¬isFirst (grid0.coords t) := fun h => h0 ((isFirst_iff t).mp h)
      have hc1 : ¬isLast (grid0.coords t) := fun h => h1 ((isLast_iff t).mp h)
      rw [Dat.leavesExact_idle (dats m 0 c) 4 t (idle4 t hc1) (noFlush4 t hc1)]
      iintro ⟨⟨HS0, HS1⟩, Ho, ⟨%d0, H0⟩, ⟨%d1, H1⟩, ⟨%d2, H2⟩, ⟨%d3, H3⟩, ⟨%d4, H4⟩⟩
      iapply (run_mid c (grid0.coords t) (ms0 t) (hs0 t) (ms1 t) (hs1 t) (ms2 t) (hs2 t) (ms3 t) (hs3 t) (ms4 t) (hs4 t) scM0 (Memref.isWhole_whole _) scM1 (Memref.isWhole_whole _) hc0 hc1 (iblk m c 0 t) (iblk m c 1 t) (iblk m c 2 t) (iblk m c 3 t) ((dats m 0 c).before 4 t d4) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the two running sums at anything — is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

/-- After the last point the invariant gives it back: the sums' named contents are forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    scopedRest_eq]
  exact PhiS_forget m c _ _

end Cert.KernelIdeal.Acc

end
-- ==== Proof.LibSharedLaunch.lean ====
/-
  A pipelined kernel whose input windows may SHARE an array — one array handed to the kernel through several
  `in_specs`, read at different blocks — inside an @main that runs host operations before the kernel's region and
  after it.

  The launch rule for distinct arrays holds every array at the full share.  When two windows stage one array the
  full share of the buffer behind it is dealt among them, and dealing it is the certificate's business: it says how
  the distinct buffers, each whole at the full share, make the proof data's arrays when the region is entered
  (`hsplit`), and that after the last point the proof data's arrays and the distinct buffers at the exit contents
  `Vx` are the same resource (`hmerge`).  Between the two the host operations after the region run within the
  core's unscoped buffers exactly as the ones before it do, writing no array; they leave every bypassing buffer at
  their composed value from the exit contents.  The kernel keeps no semaphore of its own and its invariant is
  entered from, and returns to, the core's scoped buffers that are no staging buffer, each at some contents.
  Generic in the program, the grid and the element values.
-/
import Idealize.ShloMosaic.Lib.Pipeline.FrameSuffix

noncomputable section

namespace Idealize.ShloMosaic.Pipeline

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

set_option backward.isDefEq.respectTransparency.types false in
/-- THE RUN AROUND THE REGION when windows may share arrays.  Every weakly fair execution terminates; each window's
    array ends at the proof data's `arrAt … N`, and every unscoped buffer that is no window's array at the value the
    operations after the region compute from the exit contents `Vx`. -/
theorem θ_run_shared_around
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Vx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hmerge : ∀ c, ((dats p c).arrays ((dats p c).arrAt · (cfg).N) : sProp 𝕄) ⊣⊢ arrBufs (cfg).spec c (fun b => Vx c (Proc.devRef .tc b)))
    (hrest : ∀ c, ∀ b ∈ restRefs sig (cfg).spec, Vx c (Proc.devRef .tc b) = V₀ c (Proc.devRef .tc b))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (Vx c) (Proc.devRef .tc b)) := by
  classical
  -- the exit contents' arrays are untouched by the operations after the region
  have harrx (c : Dev nD) : (arrBufs (cfg).spec c (fun b => StableHlo.after opss.flatten (Vx c) (Proc.devRef .tc b)) : sProp 𝕄)
      = arrBufs (cfg).spec c (fun b => Vx c (Proc.devRef .tc b)) := by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop⟩ := List.mem_flatten.mp hop
    exact hkeep ops hops op hop w
  have hrestx (c : Dev nD) : (unscopedRest (cfg).spec c (fun b => Vx c (Proc.devRef .tc b)) : sProp 𝕄)
      = unscopedRest (cfg).spec c (fun b => V₀ c (Proc.devRef .tc b)) := by
    unfold unscopedRest
    exact bigSep_congr fun b hb => by dsimp only; rw [hrest c b hb]
  exact θ_run_region_noSem_pf_tail (fun q => (cfgs q).toPCfg (Val := Val)) (fun q => (cfgs q).toPCfg_adm) dats () hinj p hw (PreFacts.none _) emb₁ defs₀ 𝒱₀ m g main
    (fun _ => chain (opss.map StableHlo.seq)) hbody hne harr hstage howed
    (u₀ := initOf (cells cfgs hinj) (launchToks cfgs hinj))
    (hu₀ := Entails.rfl)
    (V := fun c b => V₀ c (Proc.devRef .tc b)) (hmain := hmain)
    (hsplit := hsplit)
    (hpf := fun _ k => k.elim0)
    (X := fun _ => iprop(emp))
    (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (Vx c) (Proc.devRef .tc b)))
    (hX := fun c => by
      rw [unscopedRestP_none]
      iintro H; isplitr; · iempintro
      iexact H)
    (hin := fun c => by
      refine Entails.trans ?_ (hin c)
      change iprop(emp ∗ prefHeld _ c _ _ ∗ scopedRest (cfg).spec c) ⊢ (scopedRest (cfg).spec c : sProp 𝕄)
      iintro ⟨-, -, H⟩; iexact H)
    (hout := fun c => by
      refine Entails.trans (hout c) ?_
      change (scopedRest (cfg).spec c : sProp 𝕄) ⊢ iprop(emp ∗ scopedRest (cfg).spec c)
      iintro H; isplitr; · iempintro
      iexact H)
    (htail := fun c Q' => by
      have hheld (W : Valuation τ sig Val) : (StableHlo.held (c.tc : Thread nD τ) (ucRefs τ sig) W : sProp 𝕄)
          = iprop(arrBufs (cfg).spec c (fun b => W (Proc.devRef .tc b)) ∗ unscopedRest (cfg).spec c (fun b => W (Proc.devRef .tc b))) := by
        rw [← unscopedBufs_held (Ix := Unit) (Name := ℕ) (U := UR sig nD τ) (Lvl := ℕ) c W]
        exact unscopedBufs_split₀ cfgs p hw.arr_unscoped c _
      change iprop((iprop((dats p c).arrays ((dats p c).arrAt · (cfg).N) ∗ unscopedRest (cfg).spec c (fun b => StableHlo.after opss.flatten (Vx c) (Proc.devRef .tc b))) -∗ Q' ⟨⟩)
          ∗ boundary (c.tc : Thread nD τ) ∗ (dats p c).arrays ((dats p c).arrAt · (cfg).N) ∗ unscopedRest (cfg).spec c (fun b => V₀ c (Proc.devRef .tc b)))
        ⊢ wp frame (wpE 𝔻 𝕍 (c.tc : Thread nD τ) none) Set.univ (chain (opss.map StableHlo.seq)) Q'
      rw [← List.append_nil (opss.map StableHlo.seq)]
      iintro ⟨Hk, Hb, Ha, Hz⟩
      ihave Ha' := (hmerge c).1 $$ Ha
      iapply (wp_seqs_then (fun q => (cfgs q).toPCfg (Val := Val)) defs₀ 𝒱₀ c (ucRefs τ sig) [] opss
        (fun ops ho op h => sub_ucRefs op (hsub ops ho op h)) hfresh (Vx c)) $$ [Hb Ha' Hz]
      · isplitl [Hb]; · iexact Hb
        rw [hheld, hrestx]
        isplitl [Ha']; · iexact Ha'
        iexact Hz
      iintro Hb
      rw [chain_nil, wp_pure, hheld, harrx]
      imodintro
      iapply Hk
      icases Hb with ⟨-, Ha, Hz⟩
      isplitl [Ha]
      · iapply (hmerge c).2; iexact Ha
      iexact Hz)
    (QY := fun c s => ∀ b ∈ restRefs sig (cfg).spec, s.mem ((c.tc : Thread nD τ).loc b) = StableHlo.after opss.flatten (Vx c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (Vx c) (Proc.devRef .tc b)) s')
      isplitl [HU] <;> iassumption)
    (hQ := fun s h c => ⟨(h c).1, (h c).2.2⟩)

end Idealize.ShloMosaic.Pipeline

end
-- ==== Proof.KRun.lean ====
/-
  The kernel program's run: the host operations before the region, the pipelined region, the sum after it.

  Windows 0 and 1 both stage the normalised feature array, so its buffer is held half by each while the region
  runs: the halves are dealt when the region is entered and joined again after its last point.  The region leaves
  the feature and cluster-id arrays as it found them and the output array at what the write-backs made of it; the
  operation after the region sums that array.
-/
import proofs.«110274_j7507602833891_1_alg».proof.Proof.Accum
import proofs.«110274_j7507602833891_1_alg».proof.Proof.LibSharedLaunch

set_option maxRecDepth 16384

noncomputable section

namespace Cert.KernelIdeal.Acc

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two stretches of host operations, the region, and the summing stretch: it reduces to the region
    continued by that stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- No host operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The feature array's two halves -/

/-- The five windows' arrays at contents `G`, window by window, are the four buffers behind them whole at
    contents `W`, when `G` reads `W` at each window's array: the feature array's halves join to the whole. -/
theorem arrays_iff (c : Dev nD) (G : (w : Fin cfg0.W) → Buf (Elt F) ((cfg0.win w).arr.view.loc (c.tc : Thread nD τ)))
    (W : (b : Ref sig .tc) → Buf (Elt F) ((c.tc : Thread nD τ).loc b))
    (h0 : G 0 = W main_v5) (h1 : G 1 = W main_v5) (h2 : G 2 = W main_v6) (h3 : G 3 = W main_v7) (h4 : G 4 = W main_v8) :
    ((dats m 0 c).arrays G : sProp 𝕄) ⊣⊢ Pipeline.arrBufs spec0 c W := by
  have hL : (Pipeline.arrBufs spec0 c W : sProp 𝕄)
      = iprop((((c.tc : Thread nD τ).loc main_v5) ↦{fullShare} W main_v5) ∗ (((c.tc : Thread nD τ).loc main_v6) ↦{fullShare} W main_v6)
          ∗ (((c.tc : Thread nD τ).loc main_v7) ↦{fullShare} W main_v7) ∗ (((c.tc : Thread nD τ).loc main_v8) ↦{fullShare} W main_v8)) := by
    unfold Pipeline.arrBufs
    exact bigSep_eq_bigSepL_of_eq [main_v5, main_v6, main_v7, main_v8] (by decide) (by decide) _
  have hR : ((dats m 0 c).arrays G : sProp 𝕄)
      = iprop((((c.tc : Thread nD τ).loc main_v5) ↦{fullShare.left} W main_v5) ∗ (((c.tc : Thread nD τ).loc main_v5) ↦{fullShare.right} W main_v5)
          ∗ (((c.tc : Thread nD τ).loc main_v6) ↦{fullShare} W main_v6)
          ∗ (((c.tc : Thread nD τ).loc main_v7) ↦{fullShare} W main_v7) ∗ (((c.tc : Thread nD τ).loc main_v8) ↦{fullShare} W main_v8)) := by
    have e : ((dats m 0 c).arrays G : sProp 𝕄)
        = bigSep Finset.univ fun w : Fin cfg0.W => (((c.tc : Thread nD τ).loc (Pipeline.arrRef spec0 w)) ↦{(dats m 0 c).share w} G w : sProp 𝕄) := by
      unfold Dat.arrays
      exact bigSep_congr fun w _ => by rw [(arr_whole0 w).set_eq_univ]
    rw [e, bigSep_W0, h0, h1, h2, h3, h4]
    rw [show (dats m 0 c).share 0 = fullShare.left from rfl, show (dats m 0 c).share 1 = fullShare.right from rfl,
      show (dats m 0 c).share 2 = fullShare from rfl, show (dats m 0 c).share 3 = fullShare from rfl,
      show (dats m 0 c).share 4 = fullShare from rfl]
  rw [hL, hR]
  constructor
  · iintro ⟨Ha, Hb, H⟩
    isplitl [Ha Hb]
    · iapply (pointsTo_share (PosShare.mem_left_op_right fullShare)).2
      isplitl [Ha] <;> iassumption
    iexact H
  · iintro ⟨Ha, H⟩
    ihave Hab := (pointsTo_share (PosShare.mem_left_op_right fullShare)).1 $$ Ha
    icases Hab with ⟨Ha, Hb⟩
    isplitl [Ha]; · iexact Ha
    isplitl [Hb]; · iexact Hb
    iexact H

/-! ## The contents at the region's exit -/

/-- What the core's buffers hold when the region is left: the output array at what the write-backs made of it,
    every other buffer as the region found it. -/
def Vx (c : Dev nD) : Valuation τ sig (Elt F) :=
  Function.update (V0 m c) (Proc.devRef .tc main_v8) ((dats m 0 c).arrAt 4 cfg0.N)

theorem Vx_out (c : Dev nD) : Vx m c (Proc.devRef .tc main_v8) = (dats m 0 c).arrAt 4 cfg0.N :=
  Function.update_self ..

theorem Vx_of_ne (c : Dev nD) (b : Ref sig .tc) (hb : b ≠ main_v8) : Vx m c (Proc.devRef .tc b) = V m c b :=
  Function.update_of_ne (fun e => hb (Proc.devRef_injective _ e)) ..

/-! ## The run -/

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The summing stretch writes only its own two buffers, neither of them an array a window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, Finset.mem_singleton] <;> exact StableHlo.devRef_ne_of_ne (by decide)

/-- The post of the run: every window's array at what the write-backs made of it, and every other unscoped buffer at
    what the summing stretch computes from the exit contents. -/
def RunPost (r : PUnit × MemSt nD τ sig (Elt F)) : Prop :=
  ∀ c : Dev nD,
    (∀ w, r.2.mem ((spec0 w).arr.view.loc (c.tc : Thread nD τ)) = (dats m 0 c).arrAt w cfg0.N)
    ∧ ∀ b ∈ Pipeline.restRefs sig spec0, r.2.mem ((c.tc : Thread nD τ).loc b) = StableHlo.after (List.flatten [hostOps1]) (Vx m c) (Proc.devRef .tc b)

set_option backward.isDefEq.respectTransparency.types false in
/-- Every weakly fair execution of @main terminates in a state of `RunPost`, given the body's obligation at every
    point and the invariant's entry and exit. -/
theorem run_main
    (hbody : ∀ c, BodyObligation (dats (F := F) m 0 c) (defs₀ (F := F)) Variants.none () Set.univ)
    (hin : ∀ c, (Pipeline.scopedRest spec0 c : sProp 𝕄) ⊢ (dats m 0 c).Φ 0)
    (hout : ∀ c, (dats m 0 c).Φ (Fin.last cfg0.N) ⊢ (Pipeline.scopedRest spec0 c : sProp 𝕄)) :
    θ_run defs (onTc (τ := τ) (main (F := F))) (s₀ m ρ) (RunPost m) :=
  Pipeline.θ_run_shared_around cfgs (dats m) (0 : Fin 1) defs₀ Variants.none cellOf_inj winFacts₀0 block_pos0 arr_whole0 stage_whole0
    m ρ main (fun c => (hbody c).loose) (fun _ _ => rfl) (V0 m) (Vx m) [hostOps1] sfx_sub sfx_fresh sfx_keeps (hmain m Variants.none)
    (fun c => (arrays_iff m c _ (V m c) rfl rfl rfl rfl rfl).2)
    (fun c => arrays_iff m c _ (fun b => Vx m c (Proc.devRef .tc b))
      (((dats m 0 c).arrAt_in 0 rfl _).trans ((A_eq m c 0).trans (Vx_of_ne m c main_v5 (by decide)).symm))
      (((dats m 0 c).arrAt_in 1 rfl _).trans ((A_eq m c 1).trans (Vx_of_ne m c main_v5 (by decide)).symm))
      (((dats m 0 c).arrAt_in 2 rfl _).trans ((A_eq m c 2).trans (Vx_of_ne m c main_v6 (by decide)).symm))
      (((dats m 0 c).arrAt_in 3 rfl _).trans ((A_eq m c 3).trans (Vx_of_ne m c main_v7 (by decide)).symm))
      (Vx_out m c).symm)
    (fun c b hb => Vx_of_ne m c b fun e => (Finset.mem_sdiff.mp hb).2 (Finset.mem_image.mpr ⟨4, Finset.mem_univ _, e.symm⟩))
    hin hout

end Cert.KernelIdeal.Acc

end
-- ==== Proof.KPost.lean ====
/-
  What the run's final state says of the arguments and of the result: the arguments are no window's array and the
  summing stretch does not write them, so they end as launched; the result is the sum of the output array as the
  region left it.
-/
import proofs.«110274_j7507602833891_1_alg».proof.Proof.KRun
import Idealize.ShloMosaic.Lib.StableHlo.Run

set_option maxRecDepth 16384

noncomputable section

namespace Cert.KernelIdeal.Acc

open Idealize.ShloMosaic Idealize.ShloMosaic.TcCoe
open Idealize.SL Idealize.SL.Sem
open Cert.KernelIdeal Cert.KernelIdeal.Gen

variable {F : FTy → Type} [FloatOps F] [Named F]

variable (m : (ℓ : Loc nD τ sig) → Buf (Elt F) ℓ)

theorem arg0_rest : main_arg0 ∈ Pipeline.restRefs sig spec0 := by decide
theorem arg1_rest : main_arg1 ∈ Pipeline.restRefs sig spec0 := by decide
theorem res_rest : main_v9 ∈ Pipeline.restRefs sig spec0 := by decide

/-- The summing stretch leaves the first argument alone. -/
theorem tail_arg0 (c : Dev nD) : StableHlo.after (List.flatten [hostOps1]) (Vx m c) (Proc.devRef .tc main_arg0) = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans ((Vx_of_ne m c main_arg0 (by decide)).trans (V_main_arg0 m c))

/-- And the second. -/
theorem tail_arg1 (c : Dev nD) : StableHlo.after (List.flatten [hostOps1]) (Vx m c) (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans ((Vx_of_ne m c main_arg1 (by decide)).trans (V_main_arg1 m c))

/-- The result buffer ends at the sum of the output array as the region left it. -/
theorem tail_result (c : Dev nD) :
    (StableHlo.after (List.flatten [hostOps1]) (Vx m c) (Proc.devRef .tc main_v9) : S_.Idx → Elt F .f32)
      = Host.reduceAdd (F := F) ((dats m 0 c).arrAt 4 cfg0.N) (constant S_ .f32 0x00000000#32) reducesTo_S8192x1_S_d0_1 h_S_ := by
  simp only [hostOps1, List.flatten_cons, List.flatten_nil, List.append_nil]
  after_results
  rw [Vx_out]

/-- In a final state of the run both arguments are as launched. -/
theorem post_args (r : PUnit × MemSt nD τ sig (Elt F)) (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨((h c).2 main_arg0 arg0_rest).trans (tail_arg0 m c), ((h c).2 main_arg1 arg1_rest).trans (tail_arg1 m c)⟩

/-- And the result buffer holds the sum of the output array. -/
theorem post_result (r : PUnit × MemSt nD τ sig (Elt F)) (h : RunPost m r) (c : Dev nD) :
    (r.2.mem ((c.tc : Thread nD τ).loc main_v9) : S_.Idx → Elt F .f32)
      = Host.reduceAdd (F := F) ((dats m 0 c).arrAt 4 cfg0.N) (constant S_ .f32 0x00000000#32) reducesTo_S8192x1_S_d0_1 h_S_ :=
  ((h c).2 main_v9 res_rest).trans (tail_result m c)

end Cert.KernelIdeal.Acc

end
-- ==== Proof.KValRegroup.lean ====
/-
  Regrouping a sum over the 8192 rows by tiles of 1024.

  Row `q` of the 8192 lies in tile `q / 1024` at place `q % 1024`; summing tile by tile, and inside a tile place by
  place, visits every row once.  Only commutativity and associativity of the addition are used, so the law holds in
  any commutative additive monoid — the extended reals with their infinities included.
-/
import Mathlib.Algebra.BigOperators.Fin
import Mathlib.Algebra.BigOperators.Ring.Finset
import Mathlib.Data.Fintype.BigOperators

open scoped BigOperators

namespace Cert.KernelIdeal.KVal

/-- Row `1024 j + b`: place `b` of tile `j`. -/
def rowOf (j : Fin 8) (b : Fin 1024) : Fin 8192 := ⟨1024 * j.val + b.val, by omega⟩

theorem rowOf_val (j : Fin 8) (b : Fin 1024) : (rowOf j b).val = 1024 * j.val + b.val := rfl

/-- (tile, place) ↔ row. -/
def tileEquiv : Fin 8 × Fin 1024 ≃ Fin 8192 where
  toFun p := rowOf p.1 p.2
  invFun q := (⟨q.val / 1024, by omega⟩, ⟨q.val % 1024, Nat.mod_lt _ (by decide)⟩)
  left_inv p := by
    obtain ⟨j, b⟩ := p
    refine Prod.ext (Fin.ext ?_) (Fin.ext ?_)
    · show (1024 * j.val + b.val) / 1024 = j.val; omega
    · show (1024 * j.val + b.val) % 1024 = b.val; omega
  right_inv q := by
    apply Fin.ext
    show 1024 * (q.val / 1024) + q.val % 1024 = q.val
    omega

/-- Summing over the tiles and, inside each, over its places is summing over all rows. -/
theorem sum_tiles {M : Type*} [AddCommMonoid M] (g : Fin 8192 → M) :
    ∑ j : Fin 8, ∑ b : Fin 1024, g (rowOf j b) = ∑ q : Fin 8192, g q := by
  rw [← Equiv.sum_comp tileEquiv g, Fintype.sum_prod_type]
  rfl

/-- The tiles up to `j`, as a sum over all eight with the later ones left out. -/
def upTo {M : Type*} [AddCommMonoid M] (G : Fin 8 → M) (j : ℕ) : M := ∑ j' : Fin 8, if j'.val ≤ j then G j' else 0

/-- Up to the first tile: that tile alone. -/
theorem upTo_zero {M : Type*} [AddCommMonoid M] (G : Fin 8 → M) : upTo G 0 = G 0 := by
  unfold upTo
  rw [Finset.sum_eq_single (0 : Fin 8)]
  · simp
  · intro j' _ h
    have : ¬ j'.val ≤ 0 := fun h0 => h (Fin.ext (by simpa using h0))
    rw [if_neg this]
  · intro h; exact absurd (Finset.mem_univ _) h

/-- One tile more. -/
theorem upTo_succ {M : Type*} [AddCommMonoid M] (G : Fin 8 → M) (j : ℕ) (hj : j + 1 < 8) :
    upTo G (j + 1) = upTo G j + G ⟨j + 1, hj⟩ := by
  unfold upTo
  have split : ∀ j' : Fin 8, (if j'.val ≤ j + 1 then G j' else 0)
      = (if j'.val ≤ j then G j' else 0) + (if j' = ⟨j + 1, hj⟩ then G j' else 0) := by
    intro j'
    by_cases h1 : j'.val ≤ j
    · have h2 : j' ≠ ⟨j + 1, hj⟩ := fun e => by have := congrArg Fin.val e; simp at this; omega
      rw [if_pos h1, if_pos (by omega), if_neg h2, add_zero]
    · by_cases h2 : j' = ⟨j + 1, hj⟩
      · have h3 : j'.val ≤ j + 1 := by rw [h2]
        rw [if_neg h1, if_pos h3, if_pos h2, zero_add]
      · have h3 : ¬ j'.val ≤ j + 1 := fun h => h2 (Fin.ext (by show j'.val = j + 1; omega))
        rw [if_neg h1, if_neg h3, if_neg h2, add_zero]
  rw [Finset.sum_congr rfl (fun j' _ => split j'), Finset.sum_add_distrib, Finset.sum_ite_eq' Finset.univ ⟨j + 1, hj⟩ G,
    if_pos (Finset.mem_univ _)]

/-- Up to the last tile: all of them. -/
theorem upTo_seven {M : Type*} [AddCommMonoid M] (G : Fin 8 → M) : upTo G 7 = ∑ j' : Fin 8, G j' := by
  unfold upTo
  exact Finset.sum_congr rfl fun j' _ => if_pos (by have := j'.isLt; omega)

end Cert.KernelIdeal.KVal
-- ==== Proof.KValBlocks.lean ====
/-
  The four input blocks of a grid point, read off the arrays the region finds.

  Point `t` of the 8 x 8 grid is row tile `t / 8` against column tile `t % 8`.  Its first block is the row tile's
  1024 feature rows, its second the column tile's; its third the row tile's cluster ids (a column), its fourth the
  column tile's (a row).  An entry of a block sits in its array at tile index x 1024 plus the place inside the tile.
-/
import proofs.«110274_j7507602833891_1_alg».proof.Proof.Accum
import proofs.«110274_j7507602833891_1_alg».proof.Proof.KValRegroup
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen Cert.KernelIdeal.Acc

variable (m : (ℓ : Loc nD τ sig) → Buf (Elt Ideal) ℓ)

/-- The grid's 64 points. -/
theorem N64 : cfg0.N = 64 := N_0

/-- A point's row tile and column tile. -/
theorem lt64 (t : Fin cfg0.N) : t.val < 64 := lt_of_lt_of_eq t.isLt N64
def rowTile (t : Fin cfg0.N) : Fin 8 := ⟨t.val / 8, by have := lt64 t; omega⟩
def colTile (t : Fin cfg0.N) : Fin 8 := ⟨t.val % 8, Nat.mod_lt _ (by decide)⟩

theorem rowTile_val (t : Fin cfg0.N) : (rowTile t).val = t.val / 8 := rfl
theorem colTile_val (t : Fin cfg0.N) : (colTile t).val = t.val % 8 := rfl

/-- The three arrays the kernel reads, as the region finds them: the features, the ids as a column, the ids as a row. -/
abbrev feat (c : Dev nD) : S8192x512.Idx → EReal := V m c main_v5
abbrev idCol (c : Dev nD) : S8192x1.Idx → BitVec 32 := V m c main_v6
abbrev idRow (c : Dev nD) : S1x8192.Idx → BitVec 32 := V m c main_v7

/-- The four input blocks at point `t`. -/
abbrev qblk (c : Dev nD) (t : Fin cfg0.N) : Vec Ideal S1024x512 .bf16 := iblk m c 0 t
abbrev kblk (c : Dev nD) (t : Fin cfg0.N) : Vec Ideal S1024x512 .bf16 := iblk m c 1 t
abbrev rblk (c : Dev nD) (t : Fin cfg0.N) : Vec Ideal S1024x1 .i32 := iblk m c 2 t
abbrev cblk (c : Dev nD) (t : Fin cfg0.N) : Vec Ideal S1x1024 .i32 := iblk m c 3 t

/-- The block index of each window at a point, decided once over the grid. -/
theorem tile_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-- Row `a` of the first block is feature row `1024 (t / 8) + a`. -/
theorem qblk_apply (c : Dev nD) (t : Fin cfg0.N) (a : Fin 1024) (d : Fin 512) :
    (qblk m c t (ix2 a d) : EReal) = feat m c (ix2 (rowOf (rowTile t) a) d) := by
  obtain ⟨e0, e1, -⟩ := tile_facts t
  show V m c main_v5 (((cfg0.win 0).blk t).view.emb (ix2 a d)) = V m c main_v5 (ix2 (rowOf (rowTile t) a) d)
  congr 1
  funext ax
  apply Fin.ext
  match ax with
  | ⟨0, _⟩ => show win0_0.index t (0 : Fin 2) * 1024 + 1 * a.val = 1024 * (t.val / 8) + a.val; omega
  | ⟨1, _⟩ => show win0_0.index t (1 : Fin 2) * 512 + 1 * d.val = d.val; omega

/-- Row `b` of the second block is feature row `1024 (t % 8) + b`. -/
theorem kblk_apply (c : Dev nD) (t : Fin cfg0.N) (b : Fin 1024) (d : Fin 512) :
    (kblk m c t (ix2 b d) : EReal) = feat m c (ix2 (rowOf (colTile t) b) d) := by
  obtain ⟨-, -, e0, e1, -⟩ := tile_facts t
  show V m c main_v5 (((cfg0.win 1).blk t).view.emb (ix2 b d)) = V m c main_v5 (ix2 (rowOf (colTile t) b) d)
  congr 1
  funext ax
  apply Fin.ext
  match ax with
  | ⟨0, _⟩ => show win0_1.index t (0 : Fin 2) * 1024 + 1 * b.val = 1024 * (t.val % 8) + b.val; omega
  | ⟨1, _⟩ => show win0_1.index t (1 : Fin 2) * 512 + 1 * d.val = d.val; omega

/-- Entry `a` of the third block is the id, in the column layout, of row `1024 (t / 8) + a`. -/
theorem rblk_apply (c : Dev nD) (t : Fin cfg0.N) (a : Fin 1024) :
    (rblk m c t (ix2 a 0) : BitVec 32) = idCol m c (ix2 (rowOf (rowTile t) a) 0) := by
  obtain ⟨-, -, -, -, e0, e1, -⟩ := tile_facts t
  show V m c main_v6 (((cfg0.win 2).blk t).view.emb (ix2 a 0)) = V m c main_v6 (ix2 (rowOf (rowTile t) a) 0)
  congr 1
  funext ax
  apply Fin.ext
  match ax with
  | ⟨0, _⟩ => show win0_2.index t (0 : Fin 2) * 1024 + 1 * a.val = 1024 * (t.val / 8) + a.val; omega
  | ⟨1, _⟩ => show win0_2.index t (1 : Fin 2) * 1 + 1 * 0 = 0; omega

/-- Entry `b` of the fourth block is the id, in the row layout, of row `1024 (t % 8) + b`. -/
theorem cblk_apply (c : Dev nD) (t : Fin cfg0.N) (b : Fin 1024) :
    (cblk m c t (ix2 0 b) : BitVec 32) = idRow m c (ix2 0 (rowOf (colTile t) b)) := by
  obtain ⟨-, -, -, -, -, -, e0, e1, -⟩ := tile_facts t
  show V m c main_v7 (((cfg0.win 3).blk t).view.emb (ix2 0 b)) = V m c main_v7 (ix2 0 (rowOf (colTile t) b))
  congr 1
  funext ax
  apply Fin.ext
  match ax with
  | ⟨0, _⟩ => show win0_3.index t (0 : Fin 2) * 1 + 1 * 0 = 0; omega
  | ⟨1, _⟩ => show win0_3.index t (1 : Fin 2) * 1024 + 1 * b.val = 1024 * (t.val % 8) + b.val; omega

end Cert.KernelIdeal.KVal

end
-- ==== Proof.Spec.lean ====
/-
  The contrastive clustering loss as one function on the extended reals.

  `f` is the row-normalised feature matrix (8192 rows of 512), `cl` the cluster id of each row.  For a row `p`:
  the similarity to row `q` is the inner product of the two rows times the inverse temperature; `pos p` sums
  `exp` of it over the rows `q` of `p`'s own cluster, `tot p` over all rows; the row's loss is
  `-log (pos p / (tot p + ε))`, and the result is the sum of the rows' losses.
-/
import Idealize.ShloMosaic.PureOps.Ideal
import Idealize.ShloMosaic.Lib.ValueIdx

noncomputable section

open scoped BigOperators

namespace Cert.Spec

open Idealize.ShloMosaic Idealize.ShloMosaic.ValueIdx

/-- The inverse temperature: the reciprocal of the single-precision value nearest to one tenth,
    `13421773 / 2^27`. -/
def invT : EReal := ((134217728 / 13421773 : ℝ) : EReal)

/-- The loss's guard `ε`: the single-precision value nearest to `1e-8`. -/
def eps : EReal := Ideal.ofBits .f32 0x322BCC77#32

/-- Inner product of rows `p` and `q`. -/
def dot (f : (⟨2, ![8192, 512]⟩ : Shape).Idx → EReal) (p q : Fin 8192) : EReal :=
  ∑ d : Fin 512, f (ix2 p d) * f (ix2 q d)

/-- `exp` of the scaled similarity of rows `p` and `q`. -/
def expSim (f : (⟨2, ![8192, 512]⟩ : Shape).Idx → EReal) (p q : Fin 8192) : EReal :=
  Ideal.exp (dot f p q * invT)

/-- The sum of `expSim p q` over the rows `q` in `p`'s cluster. -/
def pos (f : (⟨2, ![8192, 512]⟩ : Shape).Idx → EReal) (cl : (⟨1, ![8192]⟩ : Shape).Idx → BitVec 32) (p : Fin 8192) : EReal :=
  ∑ q : Fin 8192, if cl (ix1 p) = cl (ix1 q) then expSim f p q else 0

/-- The sum of `expSim p q` over all rows `q`. -/
def tot (f : (⟨2, ![8192, 512]⟩ : Shape).Idx → EReal) (p : Fin 8192) : EReal :=
  ∑ q : Fin 8192, expSim f p q

/-- Row `p`'s loss. -/
def loss (f : (⟨2, ![8192, 512]⟩ : Shape).Idx → EReal) (cl : (⟨1, ![8192]⟩ : Shape).Idx → BitVec 32) (p : Fin 8192) : EReal :=
  -Ideal.log (Ideal.div (pos f cl p) (tot f p + eps))

/-- The summed loss. -/
def total (f : (⟨2, ![8192, 512]⟩ : Shape).Idx → EReal) (cl : (⟨1, ![8192]⟩ : Shape).Idx → BitVec 32) : EReal :=
  ∑ p : Fin 8192, loss f cl p

end Cert.Spec

end
-- ==== Proof.PayloadOps.lean ====
/-
  The non-pointwise operations of the kernel body, each read at one element.

  A column of 1024 sums viewed as a 1024 × 1 array keeps its entries; a 1024 × 1 column spread over 1024 columns
  repeats each row's entry along the row; the sum of a 1024 × 1024 tile along its second axis is, at row `a`, the
  sum of that row's entries; the product of a 1024 × 512 tile with the transpose of another, added to the zero
  tile, has at `(a, b)` the inner product of row `a` of the first with row `b` of the second; and a choice
  governed by the one-bit answer to "are these two words equal" is the choice governed by their equality.
-/
import proofs.«110274_j7507602833891_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadOps

open Idealize.ShloMosaic Idealize.ShloMosaic.ValueIdx
open Cert.KernelIdeal Cert.KernelIdeal.Gen

variable {α : Type}

/-! ## Layout -/

/-- An `[a]` array viewed as `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum along a row -/

/-- The sum of a `[1024, 1024]` tile along its second axis, at row `a`: the sum over `b` of the entries `(a, b)`.
    (The index over row `a` with `b` put back on the summed axis is `(a, b)`, coordinate by coordinate.) -/
theorem rowSum_apply (src : FVec Ideal S1024x1024 .f32) (h : S1024x1024.Reduces [1] S1024) (hφ : FKind.Formats .f32)
    (hacc : (0x00000000#32 : BitVec 32) = 0x00000000#32) (a : Fin 1024) :
    (multiReduction (F := Ideal) .add [1] S1024 src 0x00000000#32 h hφ hacc (ix1 a) : EReal) = ∑ b : Fin 1024, (src (ix2 a b) : EReal) := by
  refine (Ideal.multiReduction_add_single src 0x00000000#32 h hφ hacc (ix1 a)).trans ?_
  refine Finset.sum_congr rfl fun k _ => congrArg src (funext fun c => Fin.ext ?_)
  match c with
  | ⟨0, _⟩ => rfl
  | ⟨1, _⟩ => rfl

/-! ## The product with a transpose

The dimension numbers contract the second axis of both operands: at output `(a, b)` and contraction coordinate `d` the
left operand is read at `(a, d)` and the right at `(b, d)`. -/

theorem lhs_dot_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_dot_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_dot_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_dot_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product of a `[1024, 512]` tile with the transpose of another, added to the zero tile: entry `(a, b)` is the
    inner product of row `a` of the first with row `b` of the second. -/
theorem matmulT_apply (l r : FVec Ideal S1024x512 .bf16) (a b : Fin 1024) :
    (matmul dot_S1024x512_S1024x512_S1024x1024_1_1_0_0_n_n none l r (constant (F := Ideal) S1024x1024 .f32 0x00000000#32) (ix2 a b) : EReal)
      = ∑ d : Fin 512, (l (ix2 a d) : EReal) * (r (ix2 b d) : EReal) := by
  refine (Ideal.matmul_constant_zero_apply dot_S1024x512_S1024x512_S1024x1024_1_1_0_0_n_n none l r (ix2 a b)).trans ?_
  rw [← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 a b) ((ValueIdx.contrEquiv1 dot_S1024x512_S1024x512_S1024x1024_1_1_0_0_n_n 512 rfl rfl).symm k) = ix2 a k := funext fun c => Fin.ext (by
    match c with
    | ⟨0, _⟩ => exact lhs_dot_0 _ _
    | ⟨1, _⟩ => exact (lhs_dot_1 _ _).trans hk)
  have er : dot_S1024x512_S1024x512_S1024x1024_1_1_0_0_n_n.rhsIdx (ix2 a b) ((ValueIdx.contrEquiv1 dot_S1024x512_S1024x512_S1024x1024_1_1_0_0_n_n 512 rfl rfl).symm k) = ix2 b k := funext fun c => Fin.ext (by
    match c with
    | ⟨0, _⟩ => exact rhs_dot_0 _ _
    | ⟨1, _⟩ => exact (rhs_dot_1 _ _).trans hk)
  rw [el, er]

/-! ## A choice on the equality of two words -/

/-- Choosing by the bit that answers "is `p` equal to `q`" is choosing by the equation `p = q`. -/
theorem select_cmpi_eq {w : Nat} (p q : BitVec w) (A B : α) :
    Scalar.select (IntOp.cmpi .eq p q) A B = if p = q then A else B := by
  have hc : IntOp.cmpi .eq p q = BitVec.ofBool (p == q) := rfl
  unfold Scalar.select
  rw [hc]
  by_cases h : p = q
  · subst h; simp
  · have hb : (p == q) = false := beq_eq_false_iff_ne.2 h
    rw [hb, if_neg h]
    exact if_neg (by decide)

end Cert.KernelIdeal.PayloadOps

end
-- ==== Proof.PayloadAt.lean ====
/-
  The kernel body's arithmetic at one element, on the extended reals.

  At a grid point the body holds the row tile's features `x0` and cluster ids `x2`, the column tile's `x1` and
  `x3`, and the two columns of running sums.  Entry `(a, b)` of the tile of exponentials is `exp` of the inner
  product of row `a` of `x0` with row `b` of `x1`, scaled by the inverse temperature; the masked sum of row `a`
  gains the entries whose column has row `a`'s cluster id, the plain sum gains them all; the row's loss is
  `-log (masked / (plain + ε))`.
-/
import proofs.«110274_j7507602833891_1_alg».proof.Proof.Gen.KernelIdeal.Skeleton
import proofs.«110274_j7507602833891_1_alg».proof.Proof.Spec
import Idealize.ShloMosaic.Lib.ValueIdx
import Idealize.ShloMosaic.PureOps.Ideal.Laws
import proofs.«110274_j7507602833891_1_alg».proof.Proof.PayloadOps

noncomputable section

open scoped BigOperators

namespace Cert.KernelIdeal.PayloadAt

open Idealize.ShloMosaic Idealize.ShloMosaic.ValueIdx
open Cert.KernelIdeal Cert.KernelIdeal.Gen Cert.KernelIdeal.PayloadOps

/-- Entry `(a, b)` of the point's tile of exponentials. -/
def expTile (x0 x1 : Vec Ideal S1024x512 .bf16) (a b : Fin 1024) : EReal :=
  Ideal.exp ((∑ d : Fin 512, (x0 (ix2 a d) : EReal) * (x1 (ix2 b d) : EReal)) * Cert.Spec.invT)

/-- The kernel's scale, the literal `10.0`, is read as the inverse temperature: the exact rational the
    certificate's table of named constants gives it. -/
theorem invT_named :
    (Named.named (F := Ideal) κ "inv_temperature" (φ := .f32) 0x41200000#32 : EReal) = Cert.Spec.invT :=
  IdealRules.named_const.ideal_named_scalar _ _ _ _ rfl

theorem pay5_apply (x0 x1 : Vec Ideal S1024x512 .bf16) (a b : Fin 1024) :
    (k0_pay5 (F := Ideal) x0 x1 (ix2 a b) : EReal) = expTile x0 x1 a b := by
  unfold k0_pay5 expTile
  refine congrArg Ideal.exp (congrArg₂ (· * ·) ?_ invT_named)
  rw [shapeCast_self x0, shapeCast_self x1]
  exact matmulT_apply x0 x1 a b

/-- The masked sums after the point: each row gains the exponentials of the columns in its cluster. -/
theorem pay6_apply (x0 x1 : Vec Ideal S1024x512 .bf16) (x2 : Vec Ideal S1024x1 .i32) (x3 : Vec Ideal S1x1024 .i32)
    (s : Vec Ideal S1024x1 .f32) (a : Fin 1024) :
    (k0_pay6 (F := Ideal) x0 x1 x2 x3 s (ix2 a 0) : EReal)
      = (s (ix2 a 0) : EReal) + ∑ b : Fin 1024, (if (x2 (ix2 a 0) : BitVec 32) = x3 (ix2 0 b) then expTile x0 x1 a b else 0) := by
  unfold k0_pay6
  rw [shapeCast_self, shapeCast_self x2, shapeCast_self x3]
  refine congrArg ((s (ix2 a 0) : EReal) + ·) ?_
  refine (shapeCast_a_a1_apply _ _ a 0).trans ?_
  refine (rowSum_apply _ _ _ _ a).trans ?_
  refine Finset.sum_congr rfl fun b _ => ?_
  refine (select_cmpi_eq _ _ _ _).trans ?_
  rw [broadcastTo_a1_ab_apply x2, broadcastTo_1b_ab_apply x3, pay5_apply]
  exact congrArg (fun z : EReal => if (x2 (ix2 a 0) : BitVec 32) = x3 (ix2 0 b) then expTile x0 x1 a b else z)
    Ideal.ofBits_zero_f32

/-- The plain sums after the point: each row gains all the point's exponentials. -/
theorem pay17_apply (x0 x1 : Vec Ideal S1024x512 .bf16) (s : Vec Ideal S1024x1 .f32) (a : Fin 1024) :
    (k0_pay1 (F := Ideal) (k0_pay7 (F := Ideal) x0 x1 s) (ix2 a 0) : EReal)
      = (s (ix2 a 0) : EReal) + ∑ b : Fin 1024, expTile x0 x1 a b := by
  unfold k0_pay1 k0_pay7
  rw [shapeCast_self]
  refine congrArg ((s (ix2 a 0) : EReal) + ·) ?_
  refine (shapeCast_a_a1_apply _ _ a 0).trans ?_
  refine (rowSum_apply _ _ _ _ a).trans ?_
  exact Finset.sum_congr rfl fun b _ => pay5_apply x0 x1 a b

/-- The two zero columns a sweep starts from. -/
theorem pay3_apply (a : Fin 1024) : (k0_pay3 (F := Ideal) (ix2 a 0) : EReal) = 0 := by
  unfold k0_pay3
  rw [shapeCast_self]
  exact Ideal.ofBits_zero_f32

theorem pay4_apply (a : Fin 1024) : (k0_pay4 (F := Ideal) (ix2 a 0) : EReal) = 0 := by
  unfold k0_pay4
  rw [shapeCast_self]
  exact Ideal.ofBits_zero_f32

/-- The row's loss from its two sums. -/
theorem pay2_apply (s0 s1 : Vec Ideal S1024x1 .f32) (a : Fin 1024) :
    (k0_pay2 (F := Ideal) s0 s1 (ix2 a 0) : EReal)
      = -Ideal.log (Ideal.div (s0 (ix2 a 0) : EReal) ((s1 (ix2 a 0) : EReal) + Cert.Spec.eps)) := by
  unfold k0_pay2 Cert.Spec.eps
  show Ideal.ofBits .f32 0x00000000#32
      - Ideal.log (Ideal.div (s0 (ix2 a 0)) (s1 (ix2 a 0) + Ideal.ofBits .f32 0x322BCC77#32)) = _
  rw [Ideal.ofBits_zero_f32, zero_sub]

end Cert.KernelIdeal.PayloadAt

end
-- ==== Proof.KValSweep.lean ====
/-
  The two running sums after each column tile of a sweep.

  Fix a row tile `i` and one of its rows `a`, that is row `p = 1024 i + a` of the 8192.  Point `8 i + j` adds to the
  row's masked sum the exponentials `expSim p q` over the rows `q` of column tile `j` whose id equals `p`'s, and to
  its plain sum all of them.  Starting from zero at `j = 0`, after column tile `j` the two sums are those sums over
  the column tiles up to `j`; after the last one, over all 8192 rows.  Sums of extended reals are rearranged only by
  commutativity and associativity, so nothing needs to be finite.
-/
import proofs.«110274_j7507602833891_1_alg».proof.Proof.KValBlocks
import proofs.«110274_j7507602833891_1_alg».proof.Proof.PayloadAt

set_option maxRecDepth 16384

noncomputable section

open scoped BigOperators

namespace Cert.KernelIdeal.KVal

open Idealize.ShloMosaic Idealize.ShloMosaic.TcCoe Idealize.ShloMosaic.ValueIdx
open Idealize.SL.Sem
open Cert.KernelIdeal Cert.KernelIdeal.Gen Cert.KernelIdeal.Acc Cert.KernelIdeal.PayloadAt

variable (m : (ℓ : Loc nD τ sig) → Buf (Elt Ideal) ℓ)

/-! ## One point's contribution, over the arrays -/

/-- Row `p`'s masked summand at row `q`, the ids read in their two layouts; -/
def posTerm (f : S8192x512.Idx → EReal) (r : S8192x1.Idx → BitVec 32) (k : S1x8192.Idx → BitVec 32) (p q : Fin 8192) : EReal :=
  if r (ix2 p 0) = k (ix2 0 q) then Cert.Spec.expSim f p q else 0

/-- what point `t` adds to row `a`'s masked sum, and to its plain sum, over the point's blocks. -/
def posAdd (c : Dev nD) (t : Fin cfg0.N) (a : Fin 1024) : EReal :=
  ∑ b : Fin 1024, if (rblk m c t (ix2 a 0) : BitVec 32) = cblk m c t (ix2 0 b) then expTile (qblk m c t) (kblk m c t) a b else 0
def totAdd (c : Dev nD) (t : Fin cfg0.N) (a : Fin 1024) : EReal :=
  ∑ b : Fin 1024, expTile (qblk m c t) (kblk m c t) a b

/-- An entry of the point's tile of exponentials is `expSim` of the two rows it stands for. -/
theorem expTile_eq (c : Dev nD) (t : Fin cfg0.N) (a b : Fin 1024) :
    expTile (qblk m c t) (kblk m c t) a b = Cert.Spec.expSim (feat m c) (rowOf (rowTile t) a) (rowOf (colTile t) b) := by
  unfold expTile Cert.Spec.expSim Cert.Spec.dot
  refine congrArg (fun z => Ideal.exp (z * Cert.Spec.invT)) ?_
  exact Finset.sum_congr rfl fun d _ => congrArg₂ (· * ·) (qblk_apply m c t a d) (kblk_apply m c t b d)

theorem posAdd_eq (c : Dev nD) (t : Fin cfg0.N) (a : Fin 1024) :
    posAdd m c t a = ∑ b : Fin 1024, posTerm (feat m c) (idCol m c) (idRow m c) (rowOf (rowTile t) a) (rowOf (colTile t) b) := by
  unfold posAdd posTerm
  refine Finset.sum_congr rfl fun b _ => ?_
  rw [rblk_apply m c t a, cblk_apply m c t b, expTile_eq m c t a b]

theorem totAdd_eq (c : Dev nD) (t : Fin cfg0.N) (a : Fin 1024) :
    totAdd m c t a = ∑ b : Fin 1024, Cert.Spec.expSim (feat m c) (rowOf (rowTile t) a) (rowOf (colTile t) b) := by
  unfold totAdd
  exact Finset.sum_congr rfl fun b _ => expTile_eq m c t a b

/-- The same at a point named by its two tiles. -/
theorem posAdd_at (c : Dev nD) (t : Fin cfg0.N) (i j : Fin 8) (hi : t.val / 8 = i.val) (hj : t.val % 8 = j.val) (a : Fin 1024) :
    posAdd m c t a = ∑ b : Fin 1024, posTerm (feat m c) (idCol m c) (idRow m c) (rowOf i a) (rowOf j b) := by
  have ei : rowTile t = i := Fin.ext hi
  have ej : colTile t = j := Fin.ext hj
  rw [← ei, ← ej]
  exact posAdd_eq m c t a

theorem totAdd_at (c : Dev nD) (t : Fin cfg0.N) (i j : Fin 8) (hi : t.val / 8 = i.val) (hj : t.val % 8 = j.val) (a : Fin 1024) :
    totAdd m c t a = ∑ b : Fin 1024, Cert.Spec.expSim (feat m c) (rowOf i a) (rowOf j b) := by
  have ei : rowTile t = i := Fin.ext hi
  have ej : colTile t = j := Fin.ext hj
  rw [← ei, ← ej]
  exact totAdd_eq m c t a

/-! ## One point's update of the two sums, at a row -/

theorem step_fst_apply (c : Dev nD) (t : Fin cfg0.N) (s : Vec Ideal S1024x1 .f32 × Vec Ideal S1024x1 .f32) (a : Fin 1024) :
    ((step m c t s).1 (ix2 a 0) : EReal) = (s.1 (ix2 a 0) : EReal) + posAdd m c t a :=
  pay6_apply (qblk m c t) (kblk m c t) (rblk m c t) (cblk m c t) s.1 a

theorem step_snd_apply (c : Dev nD) (t : Fin cfg0.N) (s : Vec Ideal S1024x1 .f32 × Vec Ideal S1024x1 .f32) (a : Fin 1024) :
    ((step m c t s).2 (ix2 a 0) : EReal) = (s.2 (ix2 a 0) : EReal) + totAdd m c t a :=
  pay17_apply (qblk m c t) (kblk m c t) s.2 a

/-- The pair at a sweep's first point, and at a later one, with the point a natural number. -/
theorem acc_first (c : Dev nD) (n : ℕ) (h : n < cfg0.N) (h0 : n % 8 = 0) :
    accAt m c n h = step m c ⟨n, h⟩ (k0_pay3 (F := Ideal), k0_pay4 (F := Ideal)) := accAt_first m c ⟨n, h⟩ h0

theorem acc_next (c : Dev nD) (n : ℕ) (h : n + 1 < cfg0.N) (hne : ¬(n + 1) % 8 = 0) :
    accAt m c (n + 1) h = step m c ⟨n + 1, h⟩ (accAt m c n (Nat.lt_of_succ_lt h)) := accAt_next m c ⟨n + 1, h⟩ hne

/-! ## The sweep -/

/-- After column tile `j` of row tile `i`'s sweep, row `a`'s masked sum is over the column tiles up to `j`. -/
theorem sweep_pos (c : Dev nD) (i : Fin 8) (a : Fin 1024) : ∀ (j : ℕ) (hj : j < 8) (h : 8 * i.val + j < cfg0.N),
    ((accAt m c (8 * i.val + j) h).1 (ix2 a 0) : EReal)
      = upTo (fun j' : Fin 8 => ∑ b : Fin 1024, posTerm (feat m c) (idCol m c) (idRow m c) (rowOf i a) (rowOf j' b)) j
  | 0, hj, h => by
    rw [acc_first m c (8 * i.val + 0) h (by omega), step_fst_apply]
    dsimp only
    rw [pay3_apply, zero_add, upTo_zero,
      posAdd_at m c ⟨8 * i.val + 0, h⟩ i 0 (by show (8 * i.val + 0) / 8 = i.val; omega) (by show (8 * i.val + 0) % 8 = 0; omega) a]
  | j + 1, hj, h => by
    show ((accAt m c (8 * i.val + j + 1) h).1 (ix2 a 0) : EReal) = _
    rw [acc_next m c (8 * i.val + j) h (by omega), step_fst_apply, sweep_pos c i a j (by omega) _, upTo_succ _ j hj,
      posAdd_at m c ⟨8 * i.val + j + 1, h⟩ i ⟨j + 1, hj⟩ (by show (8 * i.val + j + 1) / 8 = i.val; omega)
        (by show (8 * i.val + j + 1) % 8 = j + 1; omega) a]

/-- The plain sum likewise. -/
theorem sweep_tot (c : Dev nD) (i : Fin 8) (a : Fin 1024) : ∀ (j : ℕ) (hj : j < 8) (h : 8 * i.val + j < cfg0.N),
    ((accAt m c (8 * i.val + j) h).2 (ix2 a 0) : EReal)
      = upTo (fun j' : Fin 8 => ∑ b : Fin 1024, Cert.Spec.expSim (feat m c) (rowOf i a) (rowOf j' b)) j
  | 0, hj, h => by
    rw [acc_first m c (8 * i.val + 0) h (by omega), step_snd_apply]
    dsimp only
    rw [pay4_apply, zero_add, upTo_zero,
      totAdd_at m c ⟨8 * i.val + 0, h⟩ i 0 (by show (8 * i.val + 0) / 8 = i.val; omega) (by show (8 * i.val + 0) % 8 = 0; omega) a]
  | j + 1, hj, h => by
    show ((accAt m c (8 * i.val + j + 1) h).2 (ix2 a 0) : EReal) = _
    rw [acc_next m c (8 * i.val + j) h (by omega), step_snd_apply, sweep_tot c i a j (by omega) _, upTo_succ _ j hj,
      totAdd_at m c ⟨8 * i.val + j + 1, h⟩ i ⟨j + 1, hj⟩ (by show (8 * i.val + j + 1) / 8 = i.val; omega)
        (by show (8 * i.val + j + 1) % 8 = j + 1; omega) a]

/-- After the sweep's last column tile the two sums run over all 8192 rows. -/
theorem sweep_pos_last (c : Dev nD) (i : Fin 8) (a : Fin 1024) (h : 8 * i.val + 7 < cfg0.N) :
    ((accAt m c (8 * i.val + 7) h).1 (ix2 a 0) : EReal)
      = ∑ q : Fin 8192, posTerm (feat m c) (idCol m c) (idRow m c) (rowOf i a) q := by
  rw [sweep_pos m c i a 7 (by decide) h, upTo_seven]
  exact sum_tiles fun q => posTerm (feat m c) (idCol m c) (idRow m c) (rowOf i a) q

theorem sweep_tot_last (c : Dev nD) (i : Fin 8) (a : Fin 1024) (h : 8 * i.val + 7 < cfg0.N) :
    ((accAt m c (8 * i.val + 7) h).2 (ix2 a 0) : EReal) = ∑ q : Fin 8192, Cert.Spec.expSim (feat m c) (rowOf i a) q := by
  rw [sweep_tot m c i a 7 (by decide) h, upTo_seven]
  exact sum_tiles fun q => Cert.Spec.expSim (feat m c) (rowOf i a) q

end Cert.KernelIdeal.KVal

end
-- ==== Proof.KValArray.lean ====
/-
  From the flushed blocks to the output array.

  The output array has one entry per row of the 8192.  Only a sweep's last point — `t % 8 = 7` — writes a block
  back: rows `1024 (t / 8) … 1024 (t / 8) + 1023`, each at `-log (masked / (plain + ε))` of the two sums the sweep
  has just completed, which run over all 8192 rows.  Row `r` is covered by the point `8 (r / 1024) + 7`, so after the
  last point the whole array holds the rows' losses.
-/
import proofs.«110274_j7507602833891_1_alg».proof.Proof.KValSweep
import Idealize.ShloMosaic.Lib.Pipeline.Value

set_option maxRecDepth 16384

noncomputable section

open scoped BigOperators

namespace Cert.KernelIdeal.KVal

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Acc Cert.KernelIdeal.PayloadAt

variable (m : (ℓ : Loc nD τ sig) → Buf (Elt Ideal) ℓ)

/-- Row `p`'s loss from its two sums over all rows. -/
def rowLoss (f : S8192x512.Idx → EReal) (r : S8192x1.Idx → BitVec 32) (k : S1x8192.Idx → BitVec 32) (p : Fin 8192) : EReal :=
  -Ideal.log (Ideal.div (∑ q : Fin 8192, posTerm f r k p q) ((∑ q : Fin 8192, Cert.Spec.expSim f p q) + Cert.Spec.eps))

/-- The output array after the run: every row at its loss. -/
abbrev lossArr (c : Dev nD) : Buf (Elt Ideal) ((c : Thread nD τ).loc main_v8) :=
  fun i : S8192x1.Idx => rowLoss (feat m c) (idCol m c) (idRow m c) (i 0)

/-- The pair of sums at equal points is the same pair. -/
theorem accAt_congr (c : Dev nD) {n n' : ℕ} (e : n = n') (h : n < cfg0.N) (h' : n' < cfg0.N) :
    accAt m c n h = accAt m c n' h' := by subst e; rfl

/-- What a sweep's last point leaves in the output block: row `a` at the loss of row `1024 (t / 8) + a`. -/
theorem outAt_apply (c : Dev nD) (t : Fin cfg0.N) (h7 : t.val % 8 = 7) (a : Fin 1024) :
    (outAt m c t (ix2 a 0) : EReal) = rowLoss (feat m c) (idCol m c) (idRow m c) (rowOf (rowTile t) a) := by
  have ht : t.val = 8 * (rowTile t).val + 7 := by rw [rowTile_val]; omega
  have h' : 8 * (rowTile t).val + 7 < cfg0.N := ht ▸ t.isLt
  unfold outAt rowLoss
  rw [pay2_apply, accAt_congr m c ht t.isLt h', sweep_pos_last m c (rowTile t) a h', sweep_tot_last m c (rowTile t) a h']

/-- An index of the array is in point `t`'s block iff each coordinate is in the block's range on its axis. -/
theorem mem_outBlk (t : Fin cfg0.N) (i : S8192x1.Idx) :
    i ∈ ((cfg0.win 4).blk t).view.set
      ↔ ∀ a : Fin 2, win0_4.index t a * S1024x1.size a ≤ (i a).val ∧ (i a).val < win0_4.index t a * S1024x1.size a + S1024x1.size a := by
  show i ∈ ((View.whole main_v8).slice (win0_4.rect t)).set ↔ _
  rw [View.set_slice_whole, Rect.mem_set_unit]
  exact Iff.rfl

/-- What a writing point writes back is its block of the rows' losses. -/
theorem flushed_eq (c : Dev nD) (t : Fin cfg0.N) (hf : (cfg0.win 4).flush t = true) :
    (dats m 0 c).flushed 4 t = ((cfg0.win 4).blk t).view.read (Elt Ideal) (lossArr m c) := by
  have h7 : t.val % 8 = 7 := (flush0_4 t).mp hf
  obtain ⟨-, -, -, -, -, -, -, -, e0, e1⟩ := tile_facts t
  show (cfg0.win 4).cut (grid0.coords t) ((dats m 0 c).after 4 t) = _
  rw [after0_4]
  funext y
  have hy : y = ix2 (y 0) (0 : Fin 1) := by
    funext ax
    match ax with
    | ⟨0, _⟩ => rfl
    | ⟨1, _⟩ => exact Fin.ext (by have h1 : (y 1).val < 1 := (y 1).isLt; show (y 1).val = 0; omega)
  show (outAt m c t y : EReal) = lossArr m c (((cfg0.win 4).blk t).view.emb y)
  rw [hy]
  refine (outAt_apply m c t h7 (y 0)).trans ?_
  show _ = rowLoss (feat m c) (idCol m c) (idRow m c) ((((cfg0.win 4).blk t).view.emb (ix2 (y 0) (0 : Fin 1))) 0)
  refine congrArg (rowLoss (feat m c) (idCol m c) (idRow m c)) (Fin.ext ?_)
  show 1024 * (t.val / 8) + (y 0).val = win0_4.index t (0 : Fin 2) * 1024 + 1 * (y 0).val
  omega

/-- Every row is in the block of its row tile's last point. -/
theorem covered (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hlt : 8 * ((i 0).val / 1024) + 7 < cfg0.N := by rw [N64]; omega
  obtain ⟨-, -, -, -, -, -, -, -, e0, e1⟩ := tile_facts ⟨8 * ((i 0).val / 1024) + 7, hlt⟩
  have e0' : win0_4.index ⟨8 * ((i 0).val / 1024) + 7, hlt⟩ (0 : Fin 2) = (8 * ((i 0).val / 1024) + 7) / 8 := e0
  refine ⟨⟨8 * ((i 0).val / 1024) + 7, hlt⟩, (flush0_4 _).mpr (by show (8 * ((i 0).val / 1024) + 7) % 8 = 7; omega), ?_⟩
  rw [mem_outBlk]
  intro a
  match a with
  | ⟨0, _⟩ =>
    show win0_4.index ⟨8 * ((i 0).val / 1024) + 7, hlt⟩ (0 : Fin 2) * 1024 ≤ (i 0).val
      ∧ (i 0).val < win0_4.index ⟨8 * ((i 0).val / 1024) + 7, hlt⟩ (0 : Fin 2) * 1024 + 1024
    omega
  | ⟨1, _⟩ =>
    show win0_4.index ⟨8 * ((i 0).val / 1024) + 7, hlt⟩ (1 : Fin 2) * 1 ≤ (i 1).val
      ∧ (i 1).val < win0_4.index ⟨8 * ((i 0).val / 1024) + 7, hlt⟩ (1 : Fin 2) * 1 + 1
    omega

/-- After the last point the output array holds every row's loss. -/
theorem out_final (c : Dev nD) : (dats m 0 c).arrAt 4 cfg0.N = lossArr m c :=
  (dats m 0 c).arrAt_eq_of_cover 4 (lossArr m c) (flushed_eq m c) covered

end Cert.KernelIdeal.KVal

end
-- ==== Proof.RefRun.lean ====
/-
  The reference program's run and its operations read one at a time, gathered for the modules that reason about
  the reference's value.
-/
import proofs.«110274_j7507602833891_1_alg».proof.Proof.Gen.ReferenceIdeal.Run
import proofs.«110274_j7507602833891_1_alg».proof.Proof.Gen.ReferenceIdeal.Read
-- ==== Proof.RefNorm.lean ====
/-
  The row-normalised feature matrix the reference computes before anything else: each row of the features divided by
  the larger of the row's Euclidean norm (the square root of the sum of its squares) and the guard, the single-precision
  value nearest to 1e-12. The loss is a function of this matrix and the cluster ids only.
-/
import proofs.«110274_j7507602833891_1_alg».proof.Proof.RefRun

noncomputable section

namespace Cert.ReferenceIdeal.RefValue

open Cert.ReferenceIdeal Cert.ReferenceIdeal.Gen Cert.ReferenceIdeal.Read Idealize.ShloMosaic

/-- The normalised features as a function of the features: the reference's first ten operations. -/
def normalized (x : FVec Ideal S8192x512 .f32) : FVec Ideal S8192x512 .f32 :=
  val_main_v4 (F := Ideal) x

/-- The same matrix with the ten operations written out: the features over the broadcast of the guarded norm. -/
theorem normalized_eq (x : FVec Ideal S8192x512 .f32) :
    normalized x
      = Host.divf x (broadcastInDim S8192x512 ![0, 1] bcast_S8192x1_S8192x512_0_1
          (maximumf (Host.sqrt (broadcastInDim S8192x1 ![0] bcast_S8192_S8192x1_0
              (Host.reduceAdd (mulf x x) (constant S_ .f32 0x00000000#32) reducesTo_S8192x512_S8192_d1 h_S_)))
            (broadcastInDim S8192x1 ![] bcast_S_S8192x1 (constant S_ .f32 0x2B8CBCCC#32)))) := rfl

end Cert.ReferenceIdeal.RefValue

end
-- ==== Proof.KHost.lean ====
/-
  What the kernel program's host operations leave in the arrays the tiled region reads. Before the region the program
  normalises the features exactly as the reference does (each row over the larger of its Euclidean norm and the guard),
  narrows the result to sixteen-bit floats, which on the extended reals changes nothing, and lays the cluster ids out
  twice: as a column of 8192 and as a row of 8192, entry p of either being the id of row p.
-/
import proofs.«110274_j7507602833891_1_alg».proof.Proof.Accum
import proofs.«110274_j7507602833891_1_alg».proof.Proof.RefNorm
import Idealize.ShloMosaic.Lib.StableHlo.Run
import Idealize.ShloMosaic.Lib.Pipeline.Value
import Idealize.ShloMosaic.Lib.ValueIdx

set_option maxRecDepth 16384

noncomputable section

namespace Cert.KernelIdeal.KVal

open Cert.KernelIdeal Cert.KernelIdeal.Gen Cert.KernelIdeal.Acc
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The normalised features as the kernel program computes them on the host: the features over the broadcast of the
    guarded row norms. -/
def normK (x : FVec Ideal S8192x512 .f32) : FVec Ideal S8192x512 .f32 :=
  Host.divf (F := Ideal) x (broadcastInDim S8192x512 ![0, 1] bcast_S8192x1_S8192x512_0_1
    (maximumf (F := Ideal) (Host.sqrt (F := Ideal) (broadcastInDim S8192x1 ![0] bcast_S8192_S8192x1_0
        (Host.reduceAdd (F := Ideal) (mulf (F := Ideal) x x) (constant (F := Ideal) S_ .f32 0x00000000#32)
          reducesTo_S8192x512_S8192_d1 h_S_)))
      (broadcastInDim S8192x1 ![] bcast_S_S8192x1 (constant (F := Ideal) S_ .f32 0x2B8CBCCC#32))))

/-- The two programs normalise by the same ten operations. -/
theorem normK_eq_ref (x : FVec Ideal S8192x512 .f32) : normK x = Cert.ReferenceIdeal.RefValue.normalized x :=
  (Cert.ReferenceIdeal.RefValue.normalized_eq x).symm

/-- The region's feature array is the normalised features: the narrowing to sixteen bits is the identity here. -/
theorem V_v5 (c : Dev nD) :
    (V m c main_v5 : S8192x512.Idx → EReal) = normK (m ((c : Thread nD τ).loc main_arg0)) := by
  dsimp only [V, V0]
  simp only [hostOps0, hostOps0_1, List.flatten_cons, List.flatten_nil, List.append_nil, List.cons_append,
    List.nil_append]
  after_results
  rfl

/-- The column of ids is the ids re-laid as 8192 x 1 ... -/
theorem V_v6 (c : Dev nD) :
    (V m c main_v6 : S8192x1.Idx → BitVec 32)
      = shapeCast S8192x1 (m ((c : Thread nD τ).loc main_arg1)) shapeCasts_S8192_S8192x1 := by
  dsimp only [V, V0]
  simp only [hostOps0, hostOps0_1, List.flatten_cons, List.flatten_nil, List.append_nil, List.cons_append,
    List.nil_append]
  after_results
  rfl

/-- ... and the row of ids the ids re-laid as 1 x 8192. -/
theorem V_v7 (c : Dev nD) :
    (V m c main_v7 : S1x8192.Idx → BitVec 32)
      = shapeCast S1x8192 (m ((c : Thread nD τ).loc main_arg1)) shapeCasts_S8192_S1x8192 := by
  dsimp only [V, V0]
  simp only [hostOps0, hostOps0_1, List.flatten_cons, List.flatten_nil, List.append_nil, List.cons_append,
    List.nil_append]
  after_results
  rfl

/-- Entry (p, 0) of the column is row p's id. -/
theorem V_v6_apply (c : Dev nD) (p : Fin 8192) :
    (V m c main_v6) (ix2 p (0 : Fin 1)) = (m ((c : Thread nD τ).loc main_arg1)) (ix1 p) := by
  rw [V_v6]
  exact shapeCast_apply _ shapeCasts_S8192_S8192x1 (ix2 p (0 : Fin 1)) (ix1 p) (by
    rw [Shape.rowMajor_val_one, Shape.rowMajor_val_two]; show p.val = p.val * 1 + 0; omega)

/-- Entry (0, q) of the row is row q's id. -/
theorem V_v7_apply (c : Dev nD) (q : Fin 8192) :
    (V m c main_v7) (ix2 (0 : Fin 1) q) = (m ((c : Thread nD τ).loc main_arg1)) (ix1 q) := by
  rw [V_v7]
  exact shapeCast_apply _ shapeCasts_S8192_S1x8192 (ix2 (0 : Fin 1) q) (ix1 q) (by
    rw [Shape.rowMajor_val_one, Shape.rowMajor_val_two]; show q.val = 0 * 8192 + q.val; omega)

end Cert.KernelIdeal.KVal

end
-- ==== Proof.KValTotal.lean ====
/-
  The kernel's value: the summed loss as one function of the two inputs.

  The output array holds every row's loss over the arrays the region finds; those arrays are the normalised
  features and the ids in two layouts, so each row's loss is the specification's; and the host's sum of the
  8192 x 1 array from zero is the sum of the rows' losses.
-/
import proofs.«110274_j7507602833891_1_alg».proof.Proof.KValArray
import proofs.«110274_j7507602833891_1_alg».proof.Proof.KHost
import Idealize.ShloMosaic.Lib.IdealHost
import Idealize.ShloMosaic.PureOps.Ideal.Laws

set_option maxRecDepth 16384

noncomputable section

open scoped BigOperators

namespace Cert.KernelIdeal.KVal

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Acc

variable (m : (ℓ : Loc nD τ sig) → Buf (Elt Ideal) ℓ)

/-- Over the arrays the region finds, a row's masked sum is the specification's sum over its cluster; -/
theorem pos_eq (c : Dev nD) (p : Fin 8192) :
    (∑ q : Fin 8192, posTerm (feat m c) (idCol m c) (idRow m c) p q)
      = Cert.Spec.pos (normK (m ((c : Thread nD τ).loc main_arg0))) (m ((c : Thread nD τ).loc main_arg1)) p := by
  unfold Cert.Spec.pos posTerm
  refine Finset.sum_congr rfl fun q _ => ?_
  rw [show idCol m c (ix2 p (0 : Fin 1)) = (m ((c : Thread nD τ).loc main_arg1)) (ix1 p) from V_v6_apply m c p,
    show idRow m c (ix2 (0 : Fin 1) q) = (m ((c : Thread nD τ).loc main_arg1)) (ix1 q) from V_v7_apply m c q,
    show feat m c = normK (m ((c : Thread nD τ).loc main_arg0)) from V_v5 m c]

/-- its plain sum the specification's sum over all rows; -/
theorem tot_eq (c : Dev nD) (p : Fin 8192) :
    (∑ q : Fin 8192, Cert.Spec.expSim (feat m c) p q) = Cert.Spec.tot (normK (m ((c : Thread nD τ).loc main_arg0))) p := by
  unfold Cert.Spec.tot
  rw [show feat m c = normK (m ((c : Thread nD τ).loc main_arg0)) from V_v5 m c]

/-- so its loss is the specification's. -/
theorem rowLoss_eq (c : Dev nD) (p : Fin 8192) :
    rowLoss (feat m c) (idCol m c) (idRow m c) p
      = Cert.Spec.loss (normK (m ((c : Thread nD τ).loc main_arg0))) (m ((c : Thread nD τ).loc main_arg1)) p := by
  unfold rowLoss Cert.Spec.loss
  rw [pos_eq m c p, tot_eq m c p]

/-- The host's sum of an 8192 x 1 array from zero is the sum of its 8192 entries. -/
theorem sum_col (X : S8192x1.Idx → EReal) (j : S_.Idx) :
    Host.reduceAdd (F := Ideal) X (constant (F := Ideal) S_ .f32 0x00000000#32) reducesTo_S8192x1_S_d0_1 h_S_ j
      = ∑ p : Fin 8192, X (ix2 p (0 : Fin 1)) := by
  rw [hostReduceAdd_apply, Ideal.hostReduceAdd_total _ (fun b => b.elim0)]
  show Ideal.ofBits .f32 0x00000000#32 + _ = _
  rw [Ideal.ofBits_zero_f32, zero_add, sum_idx2]
  exact Finset.sum_congr rfl fun p _ => Fin.sum_univ_one _

/-- The host's sum of the output array after the run is the summed loss of the normalised features and the ids. -/
theorem kernel_total (c : Dev nD) :
    Host.reduceAdd (F := Ideal) ((dats m 0 c).arrAt 4 cfg0.N) (constant (F := Ideal) S_ .f32 0x00000000#32) reducesTo_S8192x1_S_d0_1 h_S_
      = fun _ => Cert.Spec.total (normK (m ((c : Thread nD τ).loc main_arg0))) (m ((c : Thread nD τ).loc main_arg1)) := by
  funext j
  rw [out_final m c]
  refine (sum_col (fun i : S8192x1.Idx => rowLoss (feat m c) (idCol m c) (idRow m c) (i 0)) j).trans ?_
  unfold Cert.Spec.total
  exact Finset.sum_congr rfl fun p _ => rowLoss_eq m c p

end Cert.KernelIdeal.KVal

end
-- ==== Proof.RefConsts.lean ====
/-
  The float literals the reference program spells, as the extended reals they denote, and the one-bit mask of two
  cluster ids read as an extended real: 1 where the ids agree, 0 where they differ.
-/
import Idealize.ShloMosaic.PureOps.Ideal.Laws
import proofs.«110274_j7507602833891_1_alg».proof.Proof.Spec

noncomputable section

namespace Cert.ReferenceIdeal.RefValue

open Idealize.ShloMosaic

/-- The temperature's word denotes 13421773 / 2^27, the single-precision value nearest to one tenth. -/
theorem ofBits_temp : Ideal.ofBits .f32 0x3DCCCCCD#32 = ((13421773 / 134217728 : ℝ) : EReal) := by
  simp [Ideal.ofBits, Ideal.ieee, -EReal.coe_mul]; norm_num

/-- The word of 1.0 denotes 1. -/
theorem ofBits_one : Ideal.ofBits .f32 0x3F800000#32 = 1 := by
  simp [Ideal.ofBits, Ideal.ieee, -EReal.coe_mul]; norm_num

/-- Dividing by the temperature is multiplying by its reciprocal, on every extended real. -/
theorem div_temp (s : EReal) : Ideal.div s (Ideal.ofBits .f32 0x3DCCCCCD#32) = s * Cert.Spec.invT := by
  rw [ofBits_temp, Ideal.div_coe (by norm_num)]
  unfold Cert.Spec.invT
  congr 2
  norm_num

/-- The comparison bit of two ids, converted to a float, is 1 where they agree and 0 where they differ. -/
theorem mask_word (a b : BitVec 32) :
    (FloatOps.uitofp (F := Ideal) .f32 (IntOp.cmpi .eq a b) : EReal) = if b = a then 1 else 0 := by
  show (((IntOp.cmpi .eq a b).toNat : ℝ) : EReal) = _
  by_cases h : b = a
  · subst h
    rw [if_pos rfl]
    simp [IntOp.cmpi]
  · rw [if_neg h]
    have hne : (a == b) = false := by
      rw [beq_eq_false_iff_ne]; exact fun e => h e.symm
    simp [IntOp.cmpi, hne]

/-- The complement of the mask: 1 - 1 = 0 and 1 - 0 = 1 on the extended reals. -/
theorem one_sub_one : (1 : EReal) - 1 = 0 := by
  rw [← EReal.coe_one, ← EReal.coe_sub, sub_self, EReal.coe_zero]

theorem one_sub_zero : (1 : EReal) - 0 = 1 := sub_zero 1

end Cert.ReferenceIdeal.RefValue

end
-- ==== Proof.RefAlg.lean ====
/-
  The one law the reference needs: a row's sum over its own cluster plus its sum over the other clusters is its sum
  over all rows. It is termwise (x + 0 = x and 0 + x = x), so it holds on every extended real with no finiteness.
-/
import proofs.«110274_j7507602833891_1_alg».proof.Proof.Spec

noncomputable section

open scoped BigOperators

namespace Cert.ReferenceIdeal.RefValue

open Idealize.ShloMosaic Idealize.ShloMosaic.ValueIdx

/-- The sum of expSim p q over the rows q outside p's cluster. -/
def neg (f : (⟨2, ![8192, 512]⟩ : Shape).Idx → EReal) (cl : (⟨1, ![8192]⟩ : Shape).Idx → BitVec 32) (p : Fin 8192) : EReal :=
  ∑ q : Fin 8192, if cl (ix1 p) = cl (ix1 q) then 0 else Cert.Spec.expSim f p q

/-- Inside the cluster plus outside the cluster is everything. -/
theorem pos_add_neg (f : (⟨2, ![8192, 512]⟩ : Shape).Idx → EReal) (cl : (⟨1, ![8192]⟩ : Shape).Idx → BitVec 32) (p : Fin 8192) :
    Cert.Spec.pos f cl p + neg f cl p = Cert.Spec.tot f p := by
  unfold Cert.Spec.pos neg Cert.Spec.tot
  rw [← Finset.sum_add_distrib]
  refine Finset.sum_congr rfl fun q _ => ?_
  by_cases h : cl (ix1 p) = cl (ix1 q)
  · rw [if_pos h, if_pos h, add_zero]
  · rw [if_neg h, if_neg h, zero_add]

end Cert.ReferenceIdeal.RefValue

end
-- ==== Proof.RefStages.lean ====
/-
  The reference's big intermediate arrays read at explicit coordinates. At the entry (p, q) of the 8192 x 8192
  arrays: the exponentiated similarity is exp of (row p of the normalised features dot row q) times the inverse
  temperature; the mask is 1 where rows p and q carry the same cluster id and 0 elsewhere. So the row sums of
  exp * mask and of exp * (1 - mask) are the sums of exp over p's cluster and over the other clusters.
-/
import proofs.«110274_j7507602833891_1_alg».proof.Proof.RefNorm
import proofs.«110274_j7507602833891_1_alg».proof.Proof.RefConsts
import proofs.«110274_j7507602833891_1_alg».proof.Proof.RefAlg

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The index functions of the layout operations, at explicit coordinates -/

/-- The left operand of the product at (p, q), k is the normalised row p at k ... -/
theorem lidx_eq (p q : Fin 8192) (k : Fin 512) : lidx_main_v5 (ix2 p q) k = ix2 p k := by
  funext a; match a with | ⟨0, _⟩ => rfl | ⟨1, _⟩ => rfl

/-- ... and the right operand is row q at k. -/
theorem ridx_eq (p q : Fin 8192) (k : Fin 512) : ridx_main_v5 (ix2 p q) k = ix2 q k := by
  funext a; match a with | ⟨0, _⟩ => rfl | ⟨1, _⟩ => rfl

/-- The ids laid along the columns: entry (p, q) reads the id of row q ... -/
theorem idx_col (p q : Fin 8192) : idx_main_v9 (idx_main_v11 (ix2 p q)) = ix1 q := by
  funext a; match a with | ⟨0, _⟩ => rfl

/-- ... and the ids laid along the rows: entry (p, q) reads the id of row p. -/
theorem idx_row (p q : Fin 8192) : idx_main_v10 (idx_main_v12 (ix2 p q)) = ix1 p := by
  funext a; match a with | ⟨0, _⟩ => rfl

/-- A row sum at p ranges over the entries (p, k). -/
theorem idx_sum_pos (p k : Fin 8192) : idx_main_v16 (ix1 p) k = ix2 p k := by
  funext a; match a with | ⟨0, _⟩ => rfl | ⟨1, _⟩ => rfl

theorem idx_sum_neg (p k : Fin 8192) : idx_main_v21 (ix1 p) k = ix2 p k := by
  funext a; match a with | ⟨0, _⟩ => rfl | ⟨1, _⟩ => rfl

/-! ## The arrays at an entry -/

/-- The exponentiated similarity at (p, q). -/
theorem expSim_apply (x : FVec Ideal S8192x512 .f32) (p q : Fin 8192) :
    val_main_v8 (F := Ideal) x (ix2 p q) = Cert.Spec.expSim (normalized x) p q := by
  rw [val_main_v8_apply, val_main_v7_apply, val_main_v5_apply, val_main_v6_apply, val_main_cst_0_apply]
  simp only [Ideal.hostUnary_exp_def, Ideal.hostDivf_def, Ideal.ofBits_def, lidx_eq, ridx_eq]
  rw [div_temp]
  rfl

/-- The mask at (p, q). -/
theorem mask_apply (cl : IVec S8192 32) (p q : Fin 8192) :
    val_main_v14 (F := Ideal) cl (ix2 p q) = if cl (ix1 p) = cl (ix1 q) then 1 else 0 := by
  rw [val_main_v14_apply, val_main_v13_apply, val_main_v11_apply, val_main_v12_apply, val_main_v9_apply,
    val_main_v10_apply, idx_col, idx_row]
  exact mask_word _ _

/-- The row sum of exp * mask is the sum over the row's own cluster. -/
theorem pos_apply (x : FVec Ideal S8192x512 .f32) (cl : IVec S8192 32) (p : Fin 8192) :
    val_main_v16 (F := Ideal) x cl (ix1 p) = Cert.Spec.pos (normalized x) cl p := by
  rw [val_main_v16_apply, val_main_cst_1_apply]
  simp only [Ideal.ofBits_def, Ideal.ofBits_zero_f32, zero_add]
  unfold Cert.Spec.pos
  refine Finset.sum_congr rfl fun q _ => ?_
  rw [idx_sum_pos, val_main_v15_apply, expSim_apply, mask_apply, Ideal.mulf_def]
  by_cases h : cl (ix1 p) = cl (ix1 q)
  · rw [if_pos h, if_pos h, mul_one]
  · rw [if_neg h, if_neg h, mul_zero]

/-- The row sum of exp * (1 - mask) is the sum over the other clusters. -/
theorem neg_apply (x : FVec Ideal S8192x512 .f32) (cl : IVec S8192 32) (p : Fin 8192) :
    val_main_v21 (F := Ideal) x cl (ix1 p) = neg (normalized x) cl p := by
  rw [val_main_v21_apply, val_main_cst_3_apply]
  simp only [Ideal.ofBits_def, Ideal.ofBits_zero_f32, zero_add]
  unfold neg
  refine Finset.sum_congr rfl fun q _ => ?_
  rw [idx_sum_neg, val_main_v20_apply, val_main_v19_apply, val_main_v18_apply, val_main_cst_2_apply, expSim_apply,
    mask_apply, Ideal.mulf_def, Ideal.subf_def, Ideal.ofBits_def, ofBits_one]
  by_cases h : cl (ix1 p) = cl (ix1 q)
  · rw [if_pos h, if_pos h, one_sub_one, mul_zero]
  · rw [if_neg h, if_neg h, one_sub_zero, mul_one]

end Cert.ReferenceIdeal.RefValue

end
-- ==== Proof.RefValue.lean ====
/-
  The reference's result is the summed loss of the specification, at the normalised features and the cluster ids.
  Row p's entry of the column of losses is minus the logarithm of (the sum over p's cluster) over ((that sum plus the
  sum over the other clusters) plus the guard); the two sums add up to the sum over all rows, which is the
  specification's denominator; the last operation sums the 8192 x 1 column, from zero.
-/
import proofs.«110274_j7507602833891_1_alg».proof.Proof.RefStages

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-- A row sum broadcast into the 8192 x 1 column: the column's entry (p, 0) reads the sum of row p. -/
theorem idx_col_pos (p : Fin 8192) : idx_main_v17 (ix2 p (0 : Fin 1)) = ix1 p := by
  funext a; match a with | ⟨0, _⟩ => rfl

theorem idx_col_neg (p : Fin 8192) : idx_main_v22 (ix2 p (0 : Fin 1)) = ix1 p := by
  funext a; match a with | ⟨0, _⟩ => rfl

/-- Row p's loss. -/
theorem loss_apply (x : FVec Ideal S8192x512 .f32) (cl : IVec S8192 32) (p : Fin 8192) :
    val_main_v28 (F := Ideal) x cl (ix2 p (0 : Fin 1)) = Cert.Spec.loss (normalized x) cl p := by
  rw [val_main_v28_apply, val_main_v27_apply, val_main_v26_apply, val_main_v25_apply, val_main_v23_apply,
    val_main_v24_apply, val_main_cst_4_apply, val_main_v17_apply, val_main_v22_apply, idx_col_pos, idx_col_neg,
    pos_apply, neg_apply]
  simp only [Ideal.hostNegf_def, Ideal.negf_def, Ideal.hostUnary_log_def, Ideal.hostDivf_def, Ideal.addf_def,
    Ideal.ofBits_def]
  rw [pos_add_neg]
  rfl

/-- The reference's result, a function on the scalar shape's one index, is the summed loss. -/
theorem result_eq (x : FVec Ideal S8192x512 .f32) (cl : IVec S8192 32) :
    val_main_v29 (F := Ideal) x cl = fun _ => Cert.Spec.total (normalized x) cl := by
  funext i
  rw [val_main_v29_apply, val_main_cst_5_apply]
  simp only [Ideal.ofBits_def, Ideal.ofBits_zero_f32, zero_add]
  rw [sum_idx2 (n0 := 8192) (n1 := 1)]
  unfold Cert.Spec.total
  refine Finset.sum_congr rfl fun p _ => ?_
  rw [Fin.sum_univ_one]
  exact loss_apply x cl p

/-- Every weakly fair run of the reference ends with its result at the summed loss of the normalised features and the
    cluster ids it started with, and with both arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v29)
          = (fun _ => Cert.Spec.total (normalized (m' ((c.tc : Thread nD τ).loc main_arg0)))
              (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono
    (fun _ h c => ⟨(h c).1.trans ((val_main_v29_eq m' c).trans (result_eq _ _)), (h c).2⟩)
    (Cert.ReferenceIdeal.Value.run (F := Ideal) m' ρ')

end Cert.ReferenceIdeal.RefValue

end
-- ==== Proof.WAccum.lean ====
/-
  What the kernel's two running sums hold after each grid point, and the pipeline's proof data over them.

  The grid is 8 x 8: point `t` is row tile `t / 8` against column tile `t % 8`.  At a point the kernel reads the
  row tile's 1024 feature rows and cluster ids (windows 0 and 2), the column tile's (windows 1 and 3), and adds to
  two scratch columns of 1024 sums — the similarities' exponentials over the column tile, once masked by "same
  cluster" and once unmasked — which it zeroes first when the column tile is the first of its sweep.  After the
  sweep's last column tile it writes `-log (masked / (unmasked + ε))` to the row tile's block of the output.
-/
import proofs.«110274_j7507602833891_1_alg».proof.Proof.Gen.Kernel.Launch
import proofs.«110274_j7507602833891_1_alg».proof.Proof.Gen.Kernel.Skeleton
import proofs.«110274_j7507602833891_1_alg».proof.Proof.Gen.Kernel.Points
import Idealize.ShloMosaic.Lib.Pipeline.FrameBody
import Idealize.ShloMosaic.Lib.Pipeline.FrameSuffix

set_option maxRecDepth 16384

noncomputable section

namespace Cert.Kernel.Acc

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffer contents when the region is entered: after the host operations before it (the row norms,
    the normalised features, the two reshapes of the cluster ids). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two running sums -/

/-- The scratch column of masked sums and the scratch column of all sums, as memrefs. -/
abbrev scM0 : Memref sig .tc .vmem S1024x1 .f32 := Memref.whole cc0_scratch0
abbrev scM1 : Memref sig .tc .vmem S1024x1 .f32 := Memref.whole cc0_scratch1

/-- One point's update of the pair (masked sums, all sums): each gains the point's column tile's contribution. -/
def step (c : Dev nD) (t : Fin cfg0.N) (s : Vec F S1024x1 .f32 × Vec F S1024x1 .f32) : Vec F S1024x1 .f32 × Vec F S1024x1 .f32 :=
  (k0_pay6 (iblk m c 0 t) (iblk m c 1 t) (iblk m c 2 t) (iblk m c 3 t) s.1,
   k0_pay1 (k0_pay7 (iblk m c 0 t) (iblk m c 1 t) s.2))

/-- The pair after the body at position `n`: at the first column tile of a sweep the update of the zero columns,
    else the update of what the point before left. -/
def accAt (c : Dev nD) : (n : ℕ) → n < cfg0.N → Vec F S1024x1 .f32 × Vec F S1024x1 .f32
  | 0, hn => step m c ⟨0, hn⟩ (k0_pay3, k0_pay4)
  | n + 1, hn =>
    if (n + 1) % 8 = 0 then step m c ⟨n + 1, hn⟩ (k0_pay3, k0_pay4)
    else step m c ⟨n + 1, hn⟩ (accAt c n (Nat.lt_of_succ_lt hn))

/-- At the first column tile of a sweep the sums restart from zero. -/
theorem accAt_first (c : Dev nD) (t : Fin cfg0.N) (h : t.val % 8 = 0) :
    accAt m c t.val t.isLt = step m c t (k0_pay3, k0_pay4) := by
  obtain ⟨n, hn⟩ := t
  cases n with
  | zero => rfl
  | succ n => exact if_pos h

/-- At any later column tile they continue from the point before. -/
theorem accAt_next (c : Dev nD) (t : Fin cfg0.N) (h : ¬t.val % 8 = 0) :
    accAt m c t.val t.isLt = step m c t (accAt m c (t.val - 1) (Nat.lt_of_le_of_lt (Nat.sub_le _ _) t.isLt)) := by
  obtain ⟨n, hn⟩ := t
  cases n with
  | zero => exact absurd (Nat.zero_mod _) h
  | succ n => exact if_neg h

/-- What the body writes to the output block at a sweep's last column tile: the row losses from the two sums. -/
def outAt (c : Dev nD) (t : Fin cfg0.N) : Vec F S1024x1 .f32 :=
  k0_pay2 (accAt m c t.val t.isLt).1 (accAt m c t.val t.isLt).2

/-! ## The region invariant and the proof data -/

/-- Before the first point the two scratch columns hold anything; after point `n` they hold that point's pair. -/
def PhiS (c : Dev nD) : (n : ℕ) → n ≤ cfg0.N → sProp 𝕄
  | 0, _ => Pipeline.scopedRest spec0 c
  | n + 1, hn => iprop(owns (c : Thread nD τ) scM0 fullShare ((accAt m c n hn).1) ∗ owns (c : Thread nD τ) scM1 fullShare ((accAt m c n hn).2))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0 fullShare ((accAt m c n hn).1) ∗ owns (c : Thread nD τ) scM1 fullShare ((accAt m c n hn).2)) := rfl

theorem PhiS_pos (c : Dev nD) (n : ℕ) (h : n ≤ cfg0.N) (hz : n ≠ 0) :
    PhiS m c n h = iprop(owns (c : Thread nD τ) scM0 fullShare ((accAt m c (n - 1) (by omega)).1) ∗ owns (c : Thread nD τ) scM1 fullShare ((accAt m c (n - 1) (by omega)).2)) := by
  cases n with
  | zero => exact absurd rfl hz
  | succ n => rfl

/-- The proof data of the pipeline on core `c`: the arrays as the region finds them; after the body each input
    window's buffer still at its block and the output's, where the body writes it, at the row losses; the scratch
    columns tracked by `PhiS`; the feature array, read through windows 0 and 1, held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

end Cert.Kernel.Acc

end
-- ==== Proof.WBodyCases.lean ====
/-
  The body's two branch conditions over the 8 x 8 grid, in closed form, and what follows from them for the windows.

  The body zeroes the two running sums when the column tile is the first of its sweep (point `t` with
  `t % 8 = 0`) and writes the row losses to the output block when it is the last (`t % 8 = 7`).  The output
  window is idle at every other point and is written back only at a sweep's last point; the four input
  windows are never idle, and each holds its block at every point whether or not it was fetched there.
-/
import proofs.«110274_j7507602833891_1_alg».proof.Proof.WAccum
import Idealize.ShloMosaic.Lib.Pipeline.Value
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The offsets of a whole-block rectangle are all zero. -/
theorem hz : (![0, 0] : Fin 2 → Nat) = fun _ => 0 := funext fun a => by fin_cases a <;> rfl

/-- A buffer read back after a store of its whole block (whatever was stored before it, whatever the buffer
    held): the stored block. -/
theorem read_store_whole {S : Shape} {e : EltTy} {sig' : RefSig} {κ : Kind} {sp : Space} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load of the whole block after such a store reads the stored block. -/
theorem load_store_whole {S : Shape} {e : EltTy} {sig' : RefSig} {κ : Kind} {sp : Space} (v : View sig' κ sp S e)
    {off : Fin S.rank → Nat} (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-! ## The two conditions -/

/-- "The column tile is the first of its sweep", as the body computes it from the grid coordinates. -/
abbrev isFirst (i : grid0.Coords) : Prop :=
  (Scalar.cmpi .ne (Scalar.extui (Scalar.cmpi .eq (BitVec.ofNat 32 (i 1).val) 0#32)) 0#32) = 1#1
/-- "The column tile is the last of its sweep". -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

/-! ## Idle and live points of the windows -/

theorem live0 : ∀ i : grid0.Coords, cfg0.idle 0 i = false := fun _ => rfl
theorem live1 : ∀ i : grid0.Coords, cfg0.idle 1 i = false := fun _ => rfl
theorem live2 : ∀ i : grid0.Coords, cfg0.idle 2 i = false := fun _ => rfl
theorem live3 : ∀ i : grid0.Coords, cfg0.idle 3 i = false := fun _ => rfl

/-- Off a sweep's last point the output window is idle, -/
theorem idle4 : ∀ t : Fin cfg0.N, ¬isLast (grid0.coords t) → cfg0.idle 4 (grid0.coords t) = true := by decide +kernel
/-- and is not written back; -/
theorem noFlush4 : ∀ t : Fin cfg0.N, ¬isLast (grid0.coords t) → (cfg0.win 4).flush t = false := by decide +kernel
/-- at it the window is live. -/
theorem live4 : ∀ t : Fin cfg0.N, isLast (grid0.coords t) → cfg0.idle 4 (grid0.coords t) = false := by decide +kernel

/-! ## What the body finds in the input windows' buffers -/

theorem before0 (c : Dev nD) (t : Fin cfg0.N) (d) : (dats m 0 c).before 0 t d = iblk m c 0 t :=
  ((dats m 0 c).before_in_eq_fetched 0 rfl live0 (fun _ _ _ => rfl)
      (fun t => by rw [after0_0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl live1 (fun _ _ _ => rfl)
      (fun t => by rw [after0_1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl live2 (fun _ _ _ => rfl)
      (fun t => by rw [after0_2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl live3 (fun _ _ _ => rfl)
      (fun t => by rw [after0_3]; unfold Dat.blockOf iblk; rw [A_eq]; try rfl) t d).trans
    (by unfold Dat.fetched Dat.blockOf iblk; rw [A_eq]; try rfl)

/-! ## The scoped rest as the two running sums at anything -/

theorem scopedRest_eq (c : Dev nD) :
    (Pipeline.scopedRest spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

end Cert.Kernel.Acc

end
-- ==== Proof.WBodyRunFirst.lean ====
/-
  The body at the first point of a sweep (the column tile is the first): both running sums are zeroed, then each
  gains the point's contribution; the output block's buffer is not touched.
-/
import proofs.«110274_j7507602833891_1_alg».proof.Proof.WBodyCases

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole buffers — the four inputs at `x0 … x3`, the output's at `xo`, the running sums at anything — the body
    runs to the continuation holding the inputs and the output's buffer as they were, the masked sums at the update
    of the zero column by the point's masked row sums and the plain sums at the update of the zero column by the
    row sums. -/
theorem run_first (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : isFirst i) (hc1 : ¬isLast i) (x0 x1 : Vec F S1024x512 .bf16) (x2 : Vec F S1024x1 .i32) (x3 : Vec F S1x1024 .i32) (xo : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k0_pay6 x0 x1 x2 x3 k0_pay3)
            ∗ owns (c : Thread nD τ) arg8 fullShare (k0_pay1 (k0_pay7 x0 x1 k0_pay4))) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    refine (read_store_whole _ _ hz _ _ _).trans ?_
    sl_unfold_words
    simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]
    exact congrArg (k0_pay6 x0 x1 x2 x3) (load_store_whole (S := S1024x1) _ _ _ _)
  iexists _; isplitr; swap; · iexact HS1
  ipureintro
  refine (read_store_whole _ _ hz _ _ _).trans ?_
  sl_unfold_words
  simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]
  exact congrArg (fun v => k0_pay1 (k0_pay7 x0 x1 v)) (load_store_whole (S := S1024x1) _ _ _ _)

end Cert.Kernel.Acc

end
-- ==== Proof.WBodyRunMid.lean ====
/-
  The body at a point in the middle of a sweep (the column tile neither first nor last): each running sum gains
  the point's contribution, and the output block's buffer is not touched.
-/
import proofs.«110274_j7507602833891_1_alg».proof.Proof.WBodyRunFirst

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole buffers — the four inputs at `x0 … x3`, the output's at `xo`, the running sums at `xs0`, `xs1` —
    the body runs to the continuation holding the inputs and the output's buffer as they were, the masked sums at
    their update by the point's masked row sums and the plain sums at theirs by the row sums. -/
theorem run_mid (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬isFirst i) (hc1 : ¬isLast i) (x0 x1 : Vec F S1024x512 .bf16) (x2 : Vec F S1024x1 .i32) (x3 : Vec F S1x1024 .i32) (xo xs0 xs1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k0_pay6 x0 x1 x2 x3 xs0)
            ∗ owns (c : Thread nD τ) arg8 fullShare (k0_pay1 (k0_pay7 x0 x1 xs1))) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    refine (read_store_whole _ _ hz _ _ _).trans ?_
    simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]
  iexists _; isplitr; swap; · iexact HS1
  ipureintro
  refine (read_store_whole _ _ hz _ _ _).trans ?_
  simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]

end Cert.Kernel.Acc

end
-- ==== Proof.WBodyRunLast.lean ====
/-
  The body at the last point of a sweep (the column tile is the last): each running sum gains the point's
  contribution, and the row losses computed from the two updated sums are stored to the output block's buffer.
-/
import proofs.«110274_j7507602833891_1_alg».proof.Proof.WBodyRunMid

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole buffers — the four inputs at `x0 … x3`, the output's at anything, the running sums at `xs0`, `xs1` —
    the body runs to the continuation holding the inputs as they were, the two sums at their updates, and the
    output's buffer at the row losses of the UPDATED sums. -/
theorem run_last (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬isFirst i) (hc1 : isLast i) (x0 x1 : Vec F S1024x512 .bf16) (x2 : Vec F S1024x1 .i32) (x3 : Vec F S1x1024 .i32) (xs0 xs1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k0_pay2 (k0_pay6 x0 x1 x2 x3 xs0) (k0_pay1 (k0_pay7 x0 x1 xs1)))
            ∗ owns (c : Thread nD τ) arg7 fullShare (k0_pay6 x0 x1 x2 x3 xs0)
            ∗ owns (c : Thread nD τ) arg8 fullShare (k0_pay1 (k0_pay7 x0 x1 xs1))) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (read_store_whole _ _ hz _ _ _).trans ?_
    sl_unfold_words
    simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]
    exact congrArg₂ k0_pay2 (load_store_whole (S := S1024x1) _ _ _ _) (load_store_whole (S := S1024x1) _ _ _ _)
  isplitl [HS0]
  · iexists _; isplitr; swap; · iexact HS0
    ipureintro
    refine (read_store_whole _ _ hz _ _ _).trans ?_
    simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]
  iexists _; isplitr; swap; · iexact HS1
  ipureintro
  refine (read_store_whole _ _ hz _ _ _).trans ?_
  simp only [View.readAt_eq_ld, harg2.read_unread, harg3.read_unread, harg4.read_unread, harg5.read_unread,
      harg7.read_unread, harg8.read_unread, View.ld_unit_zero (S := S1024x512) hz, View.ld_unit_zero (S := S1024x1) hz,
      View.ld_unit_zero (S := S1x1024) hz]

end Cert.Kernel.Acc

end
-- ==== Proof.WBody.lean ====
/-
  The body obligation of the pipeline: at every grid point the kernel body, handed the windows' buffers and the two
  running sums as the point before left them, leaves the sums at this point's pair, the inputs' buffers at their
  blocks, and the output's buffer at the row losses where the point stores them and untouched elsewhere.

  The point's position in its sweep (first column tile, a middle one, the last) selects one of three whole-body
  runs; the eight column tiles make "first and last at once" impossible.
-/
import proofs.«110274_j7507602833891_1_alg».proof.Proof.WBodyRunLast

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Each window's current staging buffer at point `t`, as the pipeline hands it to the body, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)

/-- Whatever the invariant says of the two running sums before a point, each is owned whole at some contents. -/
theorem PhiS_forget (c : Dev nD) (n : ℕ) (h : n ≤ cfg0.N) :
    PhiS m c n h ⊢ iprop((∃ d, owns (c : Thread nD τ) scM0 fullShare d) ∗ (∃ d, owns (c : Thread nD τ) scM1 fullShare d)) := by
  cases n with
  | zero => rw [PhiS_zero m c 0 h rfl, scopedRest_eq]
  | succ n =>
    rw [PhiS_succ]
    iintro ⟨H0, H1⟩
    isplitl [H0]; · iexists _; iexact H0
    iexists _; iexact H1

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's place in its sweep selects the run;
    the invariant hands over the two sums (at anything at a sweep's first point, else at the pair the point before
    left) and takes them back at this point's pair; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0 t) fullShare ((dats m 0 c).after 0 t) from by
      unfold Dat.leavesExact; rw [live0 (grid0.coords t)], after0_0]
  rw [show (dats m 0 c).leavesExact 1 t = owns (c : Thread nD τ) (ms1 t) fullShare ((dats m 0 c).after 1 t) from by
      unfold Dat.leavesExact; rw [live1 (grid0.coords t)], after0_1]
  rw [show (dats m 0 c).leavesExact 2 t = owns (c : Thread nD τ) (ms2 t) fullShare ((dats m 0 c).after 2 t) from by
      unfold Dat.leavesExact; rw [live2 (grid0.coords t)], after0_2]
  rw [show (dats m 0 c).leavesExact 3 t = owns (c : Thread nD τ) (ms3 t) fullShare ((dats m 0 c).after 3 t) from by
      unfold Dat.leavesExact; rw [live3 (grid0.coords t)], after0_3]
  have hN : t.val < 64 := lt_of_lt_of_eq t.isLt (show cfg0.N = 64 from N_0)
  by_cases h0 : t.val % 8 = 0
  · have h1 : ¬t.val % 8 = 7 := by omega
    have hc0 : isFirst (grid0.coords t) := (isFirst_iff t).mpr h0
    have hc1 : ¬isLast (grid0.coords t) := fun h => h1 ((isLast_iff t).mp h)
    rw [Dat.leavesExact_idle (dats m 0 c) 4 t (idle4 t hc1) (noFlush4 t hc1)]
    rw [accAt_first m c t h0]
    unfold step; dsimp only
    refine (BIClass.sep_mono (PhiS_forget m c _ _) .rfl).trans ?_
    iintro ⟨⟨HS0, HS1⟩, Ho, ⟨%d0, H0⟩, ⟨%d1, H1⟩, ⟨%d2, H2⟩, ⟨%d3, H3⟩, ⟨%d4, H4⟩⟩
    iapply (run_first c (grid0.coords t) (ms0 t) (hs0 t) (ms1 t) (hs1 t) (ms2 t) (hs2 t) (ms3 t) (hs3 t) (ms4 t) (hs4 t) scM0 (Memref.isWhole_whole _) scM1 (Memref.isWhole_whole _) hc0 hc1 (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    rw [PhiS_pos m c _ _ hz, accAt_next m c t h0]
    unfold step; dsimp only
    by_cases h1 : t.val % 8 = 7
    · have hc0 : ¬isFirst (grid0.coords t) := fun h => h0 ((isFirst_iff t).mp h)
      have hc1 : isLast (grid0.coords t) := (isLast_iff t).mpr h1
      rw [show (dats m 0 c).leavesExact 4 t = owns (c : Thread nD τ) (ms4 t) fullShare ((dats m 0 c).after 4 t) from by
        unfold Dat.leavesExact; rw [live4 t hc1], after0_4]
      unfold outAt
      rw [accAt_next m c t h0]
      unfold step; dsimp only
      iintro ⟨⟨HS0, HS1⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scM0 (Memref.isWhole_whole _) scM1 (Memref.isWhole_whole _) hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexact H4
    · have hc0 : ¬isFirst (grid0.coords t) := fun h => h0 ((isFirst_iff t).mp h)
      have hc1 : ¬isLast (grid0.coords t) := fun h => h1 ((isLast_iff t).mp h)
      rw [Dat.leavesExact_idle (dats m 0 c) 4 t (idle4 t hc1) (noFlush4 t hc1)]
      iintro ⟨⟨HS0, HS1⟩, Ho, ⟨%d0, H0⟩, ⟨%d1, H1⟩, ⟨%d2, H2⟩, ⟨%d3, H3⟩, ⟨%d4, H4⟩⟩
      iapply (run_mid c (grid0.coords t) (ms0 t) (hs0 t) (ms1 t) (hs1 t) (ms2 t) (hs2 t) (ms3 t) (hs3 t) (ms4 t) (hs4 t) scM0 (Memref.isWhole_whole _) scM1 (Memref.isWhole_whole _) hc0 hc1 (iblk m c 0 t) (iblk m c 1 t) (iblk m c 2 t) (iblk m c 3 t) ((dats m 0 c).before 4 t d4) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the two running sums at anything — is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

/-- After the last point the invariant gives it back: the sums' named contents are forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    scopedRest_eq]
  exact PhiS_forget m c _ _

end Cert.Kernel.Acc

end
-- ==== Proof.WKRun.lean ====
/-
  The kernel program's run: the host operations before the region, the pipelined region, the sum after it.

  Windows 0 and 1 both stage the normalised feature array, so its buffer is held half by each while the region
  runs: the halves are dealt when the region is entered and joined again after its last point.  The region leaves
  the feature and cluster-id arrays as it found them and the output array at what the write-backs made of it; the
  operation after the region sums that array.
-/
import proofs.«110274_j7507602833891_1_alg».proof.Proof.WAccum
import proofs.«110274_j7507602833891_1_alg».proof.Proof.LibSharedLaunch

set_option maxRecDepth 16384

noncomputable section

namespace Cert.Kernel.Acc

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two stretches of host operations, the region, and the summing stretch: it reduces to the region
    continued by that stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- No host operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The feature array's two halves -/

/-- The five windows' arrays at contents `G`, window by window, are the four buffers behind them whole at
    contents `W`, when `G` reads `W` at each window's array: the feature array's halves join to the whole. -/
theorem arrays_iff (c : Dev nD) (G : (w : Fin cfg0.W) → Buf (Elt F) ((cfg0.win w).arr.view.loc (c.tc : Thread nD τ)))
    (W : (b : Ref sig .tc) → Buf (Elt F) ((c.tc : Thread nD τ).loc b))
    (h0 : G 0 = W main_v5) (h1 : G 1 = W main_v5) (h2 : G 2 = W main_v6) (h3 : G 3 = W main_v7) (h4 : G 4 = W main_v8) :
    ((dats m 0 c).arrays G : sProp 𝕄) ⊣⊢ Pipeline.arrBufs spec0 c W := by
  have hL : (Pipeline.arrBufs spec0 c W : sProp 𝕄)
      = iprop((((c.tc : Thread nD τ).loc main_v5) ↦{fullShare} W main_v5) ∗ (((c.tc : Thread nD τ).loc main_v6) ↦{fullShare} W main_v6)
          ∗ (((c.tc : Thread nD τ).loc main_v7) ↦{fullShare} W main_v7) ∗ (((c.tc : Thread nD τ).loc main_v8) ↦{fullShare} W main_v8)) := by
    unfold Pipeline.arrBufs
    exact bigSep_eq_bigSepL_of_eq [main_v5, main_v6, main_v7, main_v8] (by decide) (by decide) _
  have hR : ((dats m 0 c).arrays G : sProp 𝕄)
      = iprop((((c.tc : Thread nD τ).loc main_v5) ↦{fullShare.left} W main_v5) ∗ (((c.tc : Thread nD τ).loc main_v5) ↦{fullShare.right} W main_v5)
          ∗ (((c.tc : Thread nD τ).loc main_v6) ↦{fullShare} W main_v6)
          ∗ (((c.tc : Thread nD τ).loc main_v7) ↦{fullShare} W main_v7) ∗ (((c.tc : Thread nD τ).loc main_v8) ↦{fullShare} W main_v8)) := by
    have e : ((dats m 0 c).arrays G : sProp 𝕄)
        = bigSep Finset.univ fun w : Fin cfg0.W => (((c.tc : Thread nD τ).loc (Pipeline.arrRef spec0 w)) ↦{(dats m 0 c).share w} G w : sProp 𝕄) := by
      unfold Dat.arrays
      exact bigSep_congr fun w _ => by rw [(arr_whole0 w).set_eq_univ]
    rw [e, bigSep_W0, h0, h1, h2, h3, h4]
    rw [show (dats m 0 c).share 0 = fullShare.left from rfl, show (dats m 0 c).share 1 = fullShare.right from rfl,
      show (dats m 0 c).share 2 = fullShare from rfl, show (dats m 0 c).share 3 = fullShare from rfl,
      show (dats m 0 c).share 4 = fullShare from rfl]
  rw [hL, hR]
  constructor
  · iintro ⟨Ha, Hb, H⟩
    isplitl [Ha Hb]
    · iapply (pointsTo_share (PosShare.mem_left_op_right fullShare)).2
      isplitl [Ha] <;> iassumption
    iexact H
  · iintro ⟨Ha, H⟩
    ihave Hab := (pointsTo_share (PosShare.mem_left_op_right fullShare)).1 $$ Ha
    icases Hab with ⟨Ha, Hb⟩
    isplitl [Ha]; · iexact Ha
    isplitl [Hb]; · iexact Hb
    iexact H

/-! ## The contents at the region's exit -/

/-- What the core's buffers hold when the region is left: the output array at what the write-backs made of it,
    every other buffer as the region found it. -/
def Vx (c : Dev nD) : Valuation τ sig (Elt F) :=
  Function.update (V0 m c) (Proc.devRef .tc main_v8) ((dats m 0 c).arrAt 4 cfg0.N)

theorem Vx_out (c : Dev nD) : Vx m c (Proc.devRef .tc main_v8) = (dats m 0 c).arrAt 4 cfg0.N :=
  Function.update_self ..

theorem Vx_of_ne (c : Dev nD) (b : Ref sig .tc) (hb : b ≠ main_v8) : Vx m c (Proc.devRef .tc b) = V m c b :=
  Function.update_of_ne (fun e => hb (Proc.devRef_injective _ e)) ..

/-! ## The run -/

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The summing stretch writes only its own two buffers, neither of them an array a window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, Finset.mem_singleton] <;> exact StableHlo.devRef_ne_of_ne (by decide)

/-- The post of the run: every window's array at what the write-backs made of it, and every other unscoped buffer at
    what the summing stretch computes from the exit contents. -/
def RunPost (r : PUnit × MemSt nD τ sig (Elt F)) : Prop :=
  ∀ c : Dev nD,
    (∀ w, r.2.mem ((spec0 w).arr.view.loc (c.tc : Thread nD τ)) = (dats m 0 c).arrAt w cfg0.N)
    ∧ ∀ b ∈ Pipeline.restRefs sig spec0, r.2.mem ((c.tc : Thread nD τ).loc b) = StableHlo.after (List.flatten [hostOps1]) (Vx m c) (Proc.devRef .tc b)

set_option backward.isDefEq.respectTransparency.types false in
/-- Every weakly fair execution of @main terminates in a state of `RunPost`, given the body's obligation at every
    point and the invariant's entry and exit. -/
theorem run_main
    (hbody : ∀ c, BodyObligation (dats (F := F) m 0 c) (defs₀ (F := F)) Variants.none () Set.univ)
    (hin : ∀ c, (Pipeline.scopedRest spec0 c : sProp 𝕄) ⊢ (dats m 0 c).Φ 0)
    (hout : ∀ c, (dats m 0 c).Φ (Fin.last cfg0.N) ⊢ (Pipeline.scopedRest spec0 c : sProp 𝕄)) :
    θ_run defs (onTc (τ := τ) (main (F := F))) (s₀ m ρ) (RunPost m) :=
  Pipeline.θ_run_shared_around cfgs (dats m) (0 : Fin 1) defs₀ Variants.none cellOf_inj winFacts₀0 block_pos0 arr_whole0 stage_whole0
    m ρ main (fun c => (hbody c).loose) (fun _ _ => rfl) (V0 m) (Vx m) [hostOps1] sfx_sub sfx_fresh sfx_keeps (hmain m Variants.none)
    (fun c => (arrays_iff m c _ (V m c) rfl rfl rfl rfl rfl).2)
    (fun c => arrays_iff m c _ (fun b => Vx m c (Proc.devRef .tc b))
      (((dats m 0 c).arrAt_in 0 rfl _).trans ((A_eq m c 0).trans (Vx_of_ne m c main_v5 (by decide)).symm))
      (((dats m 0 c).arrAt_in 1 rfl _).trans ((A_eq m c 1).trans (Vx_of_ne m c main_v5 (by decide)).symm))
      (((dats m 0 c).arrAt_in 2 rfl _).trans ((A_eq m c 2).trans (Vx_of_ne m c main_v6 (by decide)).symm))
      (((dats m 0 c).arrAt_in 3 rfl _).trans ((A_eq m c 3).trans (Vx_of_ne m c main_v7 (by decide)).symm))
      (Vx_out m c).symm)
    (fun c b hb => Vx_of_ne m c b fun e => (Finset.mem_sdiff.mp hb).2 (Finset.mem_image.mpr ⟨4, Finset.mem_univ _, e.symm⟩))
    hin hout

end Cert.Kernel.Acc

end
-- ==== Proof.WKPost.lean ====
/-
  What the run's final state says of the arguments and of the result: the arguments are no window's array and the
  summing stretch does not write them, so they end as launched; the result is the sum of the output array as the
  region left it.
-/
import proofs.«110274_j7507602833891_1_alg».proof.Proof.WKRun
import Idealize.ShloMosaic.Lib.StableHlo.Run

set_option maxRecDepth 16384

noncomputable section

namespace Cert.Kernel.Acc

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

theorem arg0_rest : main_arg0 ∈ Pipeline.restRefs sig spec0 := by decide
theorem arg1_rest : main_arg1 ∈ Pipeline.restRefs sig spec0 := by decide
theorem res_rest : main_v9 ∈ Pipeline.restRefs sig spec0 := by decide

/-- The summing stretch leaves the first argument alone. -/
theorem tail_arg0 (c : Dev nD) : StableHlo.after (List.flatten [hostOps1]) (Vx m c) (Proc.devRef .tc main_arg0) = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans ((Vx_of_ne m c main_arg0 (by decide)).trans (V_main_arg0 m c))

/-- And the second. -/
theorem tail_arg1 (c : Dev nD) : StableHlo.after (List.flatten [hostOps1]) (Vx m c) (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans ((Vx_of_ne m c main_arg1 (by decide)).trans (V_main_arg1 m c))

/-- The result buffer ends at the sum of the output array as the region left it. -/
theorem tail_result (c : Dev nD) :
    (StableHlo.after (List.flatten [hostOps1]) (Vx m c) (Proc.devRef .tc main_v9) : S_.Idx → Elt F .f32)
      = Host.reduceAdd (F := F) ((dats m 0 c).arrAt 4 cfg0.N) (constant S_ .f32 0x00000000#32) reducesTo_S8192x1_S_d0_1 h_S_ := by
  simp only [hostOps1, List.flatten_cons, List.flatten_nil, List.append_nil]
  after_results
  rw [Vx_out]

/-- In a final state of the run both arguments are as launched. -/
theorem post_args (r : PUnit × MemSt nD τ sig (Elt F)) (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨((h c).2 main_arg0 arg0_rest).trans (tail_arg0 m c), ((h c).2 main_arg1 arg1_rest).trans (tail_arg1 m c)⟩

/-- And the result buffer holds the sum of the output array. -/
theorem post_result (r : PUnit × MemSt nD τ sig (Elt F)) (h : RunPost m r) (c : Dev nD) :
    (r.2.mem ((c.tc : Thread nD τ).loc main_v9) : S_.Idx → Elt F .f32)
      = Host.reduceAdd (F := F) ((dats m 0 c).arrAt 4 cfg0.N) (constant S_ .f32 0x00000000#32) reducesTo_S8192x1_S_d0_1 h_S_ :=
  ((h c).2 main_v9 res_rest).trans (tail_result m c)

end Cert.Kernel.Acc

end
-- ==== Proof.lean ====
/-
  The claim: the tiled contrastive-clustering-loss kernel and its jnp reference compute the same extended real.

  Both programs normalise the feature rows by the same ten host operations.  The kernel then sweeps the 8 x 8 grid
  of 1024 x 1024 similarity tiles, keeping per row the running sum of `exp (sim)` over the columns of the row's
  cluster and over all columns, and writes `-log (pos / (tot + ε))` after each sweep's last tile; the reference forms
  the whole 8192 x 8192 matrix, and its second sum is over the columns NOT in the row's cluster, added to the first.
  The kernel multiplies the inner products by its literal `10`, read as the exact reciprocal `134217728 / 13421773`
  of the reference's divisor (the single-precision value nearest one tenth): the one named constant, whose
  statement is `preserves`.  On the extended reals the two results are the same sum of row losses
  (`Cert.Spec.total`), by commutativity and associativity of `+` and `x * 1 = x`, `x * 0 = 0`: no finiteness of
  the inputs is used.  The three frames: each program's run, with the result forgotten.
-/
import proofs.«110274_j7507602833891_1_alg».proof.Defs
import proofs.«110274_j7507602833891_1_alg».proof.Proof.Gen.Kernel
import proofs.«110274_j7507602833891_1_alg».proof.Proof.Gen.KernelIdeal
import proofs.«110274_j7507602833891_1_alg».proof.Proof.Gen.ReferenceIdeal
import proofs.«110274_j7507602833891_1_alg».proof.Proof.Gen.Pre_finite_inputs
import proofs.«110274_j7507602833891_1_alg».proof.Proof.Body
import proofs.«110274_j7507602833891_1_alg».proof.Proof.KPost
import proofs.«110274_j7507602833891_1_alg».proof.Proof.KValTotal
import proofs.«110274_j7507602833891_1_alg».proof.Proof.KHost
import proofs.«110274_j7507602833891_1_alg».proof.Proof.RefValue
import proofs.«110274_j7507602833891_1_alg».proof.Proof.WBody
import proofs.«110274_j7507602833891_1_alg».proof.Proof.WKPost
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ =>
  (θ_run Cert.Kernel.defs _ _).mono (fun r h c => Cert.Kernel.Acc.post_args m r h c)
    (Cert.Kernel.Acc.run_main (F := Bits) m ρ (Cert.Kernel.Acc.body_obligation m) (Cert.Kernel.Acc.hin m) (Cert.Kernel.Acc.hout m))

/-- So does the idealized kernel. -/
theorem frame_ki : Cert.frame_KernelIdeal := fun m ρ _ =>
  (θ_run Cert.KernelIdeal.defs _ _).mono (fun r h c => Cert.KernelIdeal.Acc.post_args m r h c)
    (Cert.KernelIdeal.Acc.run_main (F := Ideal) m ρ (Cert.KernelIdeal.Acc.body_obligation m) (Cert.KernelIdeal.Acc.hin m) (Cert.KernelIdeal.Acc.hout m))

/-- And the reference: its run with the result forgotten. -/
theorem frame_ri : Cert.frame_ReferenceIdeal := fun m ρ _ =>
  (θ_run Cert.ReferenceIdeal.defs _ _).mono (fun _ h c => (h c).2) (Cert.ReferenceIdeal.RefValue.run m ρ)

/-- The one named constant: the kernel's `10` denotes the reciprocal of the reference's divisor. -/
theorem preserves : Cert.preserves_Kernel_KernelIdeal :=
  IdealRules.named_const.statement Cert.KernelIdeal.κ "inv_temperature" .f32 0x41200000#32 ((134217728 / 13421773 : ℝ) : EReal) rfl

/-- Both idealized programs end with the summed row losses of the normalised features. -/
theorem algebraic : Cert.algebraic_KernelIdeal_ReferenceIdeal := by
  intro m ρ m' ρ' _ hagree
  refine ⟨fun c => fun _ => Cert.Spec.total
      (Cert.KernelIdeal.KVal.normK (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)), ?_, ?_⟩
  · exact (θ_run Cert.KernelIdeal.defs _ _).mono
      (fun r h c => ⟨(Cert.KernelIdeal.Acc.post_result m r h c).trans (Cert.KernelIdeal.KVal.kernel_total m c), Cert.KernelIdeal.Acc.post_args m r h c⟩)
      (Cert.KernelIdeal.Acc.run_main (F := Ideal) m ρ (Cert.KernelIdeal.Acc.body_obligation m) (Cert.KernelIdeal.Acc.hin m) (Cert.KernelIdeal.Acc.hout m))
  · refine (θ_run Cert.ReferenceIdeal.defs _ _).mono (fun r h c => ⟨?_, (h c).2⟩) (Cert.ReferenceIdeal.RefValue.run m' ρ')
    rw [(h c).1, (hagree c).1, (hagree c).2]
    dsimp only
    rw [Cert.KernelIdeal.KVal.normK_eq_ref]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
